-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x640 : Shape := ⟨2, ![32768, 640]⟩
abbrev S32768x80 : Shape := ⟨2, ![32768, 80]⟩
abbrev S32 : Shape := ⟨1, ![32]⟩
abbrev S_ : Shape := ⟨0, ![]⟩

class Facts : Prop where
  bcast_S_S32768x640 : S_.BroadcastsInDim S32768x640 (![] : Fin 0 → Fin S32768x640.rank)
  reducesTo_S32768x640_S_d0_1 : S32768x640.ReducesTo [0, 1] S_
  h_S_ : 0 < S_.numel
  bcast_S_S32768x80 : S_.BroadcastsInDim S32768x80 (![] : Fin 0 → Fin S32768x80.rank)
  reducesTo_S32768x80_S_d0_1 : S32768x80.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg3 : IVec S32 32) (main_arg4 : IVec S32 32) (main_v13 : IVec S_ 1) (main_v15 : IVec S32 1) (main_c_5 : IVec S_ 1) : IVec S_ 1 :=
  let main_v16 : IVec S_ 1 := (fun x v => Host.reduce IntOp.andi x v reducesTo_S32_S_d0 h_S_) main_v15 main_c_5
  let main_v17 : IVec S_ 1 := andi main_v13 main_v16
  let main_c_6 : IVec S_ 32 := constantI S_ 32 20#32
  let main_v18 : IVec S32 32 := broadcastInDim S32 ![] bcast_S_S32 main_c_6
  let main_v19 : IVec S32 1 := cmpi .slt main_arg3 main_v18
  let main_c_7 : IVec S_ 1 := constantI S_ 1 1#1
  let main_v20 : IVec S_ 1 := (fun x v => Host.reduce IntOp.andi x v reducesTo_S32_S_d0 h_S_) main_v19 main_c_7
  let main_v21 : IVec S_ 1 := andi main_v17 main_v20
  let main_c_8 : IVec S_ 32 := constantI S_ 32 0#32
  let main_v22 : IVec S32 32 := broadcastInDim S32 ![] bcast_S_S32 main_c_8
  let main_v23 : IVec S32 1 := cmpi .sge main_arg4 main_v22
  let main_c_9 : IVec S_ 1 := constantI S_ 1 1#1
  let main_v24 : IVec S_ 1 := (fun x v => Host.reduce IntOp.andi x v reducesTo_S32_S_d0 h_S_) main_v23 main_c_9
  let main_v25 : IVec S_ 1 := andi main_v21 main_v24
  let main_c_10 : IVec S_ 32 := constantI S_ 32 10#32
  let main_v26 : IVec S32 32 := broadcastInDim S32 ![] bcast_S_S32 main_c_10
  let main_v27 : IVec S32 1 := cmpi .slt main_arg4 main_v26
  let main_c_11 : IVec S_ 1 := constantI S_ 1 1#1
  let main_v28 : IVec S_ 1 := (fun x v => Host.reduce IntOp.andi x v reducesTo_S32_S_d0 h_S_) main_v27 main_c_11
  let main_v29 : IVec S_ 1 := andi main_v25 main_v28
  main_v29

def fn {F : FTy → Type} [FloatOps F] (main_arg0 : FVec F S32768x640 .f32) (main_arg1 : FVec F S32768x80 .f32) (main_arg2 : FVec F S32 .f32) (main_arg3 : IVec S32 32) (main_arg4 : IVec S32 32) (main_arg5 : IVec S32 32) : IVec S_ 1 :=
  let main_v0 : FVec F S32768x640 .f32 := Host.absf main_arg0
  let main_cst : FVec F S_ .f32 := constant S_ .f32 0x7F800000#32
  let main_v1 : FVec F S32768x640 .f32 := broadcastInDim S32768x640 ![] bcast_S_S32768x640 main_cst
  let main_v2 : IVec S32768x640 1 := cmpf .olt main_v0 main_v1
  let main_c : IVec S_ 1 := constantI S_ 1 1#1
  let main_v3 : IVec S_ 1 := (fun x v => Host.reduce IntOp.andi x v reducesTo_S32768x640_S_d0_1 h_S_) main_v2 main_c
  let main_v4 : FVec F S32768x80 .f32 := Host.absf main_arg1
  let main_cst_0 : FVec F S_ .f32 := constant S_ .f32 0x7F800000#32
  let main_v5 : FVec F S32768x80 .f32 := broadcastInDim S32768x80 ![] bcast_S_S32768x80 main_cst_0
  let main_v6 : IVec S32768x80 1 := cmpf .olt main_v4 main_v5
  let main_c_1 : IVec S_ 1 := constantI S_ 1 1#1
  let main_v7 : IVec S_ 1 := (fun x v => Host.reduce IntOp.andi x v reducesTo_S32768x80_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_c_4 : IVec S_ 32 := constantI S_ 32 0#32
  let main_v14 : IVec S32 32 := broadcastInDim S32 ![] bcast_S_S32 main_c_4
  let main_v15 : IVec S32 1 := cmpi .sge main_arg3 main_v14
  let main_c_5 : IVec S_ 1 := constantI S_ 1 1#1
  fn_part1 (F := F) main_arg3 main_arg4 main_v13 main_v15 main_c_5
-- ==== Kernel.lean ====
abbrev S32768x640 : Shape := ⟨2, ![32768, 640]⟩
abbrev S32768x80 : Shape := ⟨2, ![32768, 80]⟩
abbrev S32 : Shape := ⟨1, ![32]⟩
abbrev S32x1 : Shape := ⟨2, ![32, 1]⟩
abbrev S20 : Shape := ⟨1, ![20]⟩
abbrev S1x20 : Shape := ⟨2, ![1, 20]⟩
abbrev S32x20 : Shape := ⟨2, ![32, 20]⟩
abbrev S10 : Shape := ⟨1, ![10]⟩
abbrev S1x10 : Shape := ⟨2, ![1, 10]⟩
abbrev S32x10 : Shape := ⟨2, ![32, 10]⟩
abbrev S32x32 : Shape := ⟨2, ![32, 32]⟩
abbrev S_ : Shape := ⟨0, ![]⟩
abbrev S8x8 : Shape := ⟨2, ![8, 8]⟩
abbrev S20x32 : Shape := ⟨2, ![20, 32]⟩
abbrev S20x1x32x1 : Shape := ⟨4, ![20, 1, 32, 1]⟩
abbrev S1x32x1x32 : Shape := ⟨4, ![1, 32, 1, 32]⟩
abbrev S20x32x32x32 : Shape := ⟨4, ![20, 32, 32, 32]⟩
abbrev S640x1024 : Shape := ⟨2, ![640, 1024]⟩
abbrev S10x32 : Shape := ⟨2, ![10, 32]⟩
abbrev S10x1x32x1 : Shape := ⟨4, ![10, 1, 32, 1]⟩
abbrev S1x8x1x8 : Shape := ⟨4, ![1, 8, 1, 8]⟩
abbrev S10x8x32x8 : Shape := ⟨4, ![10, 8, 32, 8]⟩
abbrev S80x256 : Shape := ⟨2, ![80, 256]⟩
abbrev S12 : Shape := ⟨1, ![12]⟩
abbrev S12x1 : Shape := ⟨2, ![12, 1]⟩
abbrev S1x32 : Shape := ⟨2, ![1, 32]⟩
abbrev S12x32 : Shape := ⟨2, ![12, 32]⟩
abbrev S32768x3072 : Shape := ⟨2, ![32768, 3072]⟩
abbrev S256x640 : Shape := ⟨2, ![256, 640]⟩
abbrev S256x80 : Shape := ⟨2, ![256, 80]⟩
abbrev S256x3072 : Shape := ⟨2, ![256, 3072]⟩
abbrev S256x1024 : Shape := ⟨2, ![256, 1024]⟩
abbrev S256x256 : Shape := ⟨2, ![256, 256]⟩
abbrev S256x32x32 : Shape := ⟨3, ![256, 32, 32]⟩
abbrev S256x32x8 : Shape := ⟨3, ![256, 32, 8]⟩
abbrev S1x32x1 : Shape := ⟨3, ![1, 32, 1]⟩

abbrev nBuf : Space → Nat
  | .hbm => 61
  | .vmem => 9
  | .smem => 0
  | _ => 0

abbrev bufTy : (tb : Table) → Fin (tcTables nBuf tb) → BufTy
  | .hbm, ⟨0, _⟩ => ⟨S32768x640, .f32⟩
  | .hbm, ⟨1, _⟩ => ⟨S32768x80, .f32⟩
  | .hbm, ⟨2, _⟩ => ⟨S32, .f32⟩
  | .hbm, ⟨3, _⟩ => ⟨S32, .i32⟩
  | .hbm, ⟨4, _⟩ => ⟨S32, .i32⟩
  | .hbm, ⟨5, _⟩ => ⟨S32, .i32⟩
  | .hbm, ⟨6, _⟩ => ⟨S32x1, .i32⟩
  | .hbm, ⟨7, _⟩ => ⟨S20, .i32⟩
  | .hbm, ⟨8, _⟩ => ⟨S1x20, .i32⟩
  | .hbm, ⟨9, _⟩ => ⟨S32x20, .i32⟩
  | .hbm, ⟨10, _⟩ => ⟨S32x20, .i32⟩
  | .hbm, ⟨11, _⟩ => ⟨S32x20, .i1⟩
  | .hbm, ⟨12, _⟩ => ⟨S32x20, .f32⟩
  | .hbm, ⟨13, _⟩ => ⟨S32x1, .i32⟩
  | .hbm, ⟨14, _⟩ => ⟨S10, .i32⟩
  | .hbm, ⟨15, _⟩ => ⟨S1x10, .i32⟩
  | .hbm, ⟨16, _⟩ => ⟨S32x10, .i32⟩
  | .hbm, ⟨17, _⟩ => ⟨S32x10, .i32⟩
  | .hbm, ⟨18, _⟩ => ⟨S32x10, .i1⟩
  | .hbm, ⟨19, _⟩ => ⟨S32x10, .f32⟩
  | .hbm, ⟨20, _⟩ => ⟨S32x32, .i32⟩
  | .hbm, ⟨21, _⟩ => ⟨S32x32, .i32⟩
  | .hbm, ⟨22, _⟩ => ⟨S_, .i32⟩
  | .hbm, ⟨23, _⟩ => ⟨S32x32, .i32⟩
  | .hbm, ⟨24, _⟩ => ⟨S32x32, .i32⟩
  | .hbm, ⟨25, _⟩ => ⟨S32x32, .i1⟩
  | .hbm, ⟨26, _⟩ => ⟨S32x32, .f32⟩
  | .hbm, ⟨27, _⟩ => ⟨S8x8, .i32⟩
  | .hbm, ⟨28, _⟩ => ⟨S8x8, .i32⟩
  | .hbm, ⟨29, _⟩ => ⟨S_, .i32⟩
  | .hbm, ⟨30, _⟩ => ⟨S8x8, .i32⟩
  | .hbm, ⟨31, _⟩ => ⟨S8x8, .i32⟩
  | .hbm, ⟨32, _⟩ => ⟨S8x8, .i1⟩
  | .hbm, ⟨33, _⟩ => ⟨S8x8, .f32⟩
  | .hbm, ⟨34, _⟩ => ⟨S20x32, .f32⟩
  | .hbm, ⟨35, _⟩ => ⟨S20x1x32x1, .f32⟩
  | .hbm, ⟨36, _⟩ => ⟨S1x32x1x32, .f32⟩
  | .hbm, ⟨37, _⟩ => ⟨S20x32x32x32, .f32⟩
  | .hbm, ⟨38, _⟩ => ⟨S20x32x32x32, .f32⟩
  | .hbm, ⟨39, _⟩ => ⟨S20x32x32x32, .f32⟩
  | .hbm, ⟨40, _⟩ => ⟨S640x1024, .f32⟩
  | .hbm, ⟨41, _⟩ => ⟨S640x1024, .bf16⟩
  | .hbm, ⟨42, _⟩ => ⟨S10x32, .f32⟩
  | .hbm, ⟨43, _⟩ => ⟨S10x1x32x1, .f32⟩
  | .hbm, ⟨44, _⟩ => ⟨S1x8x1x8, .f32⟩
  | .hbm, ⟨45, _⟩ => ⟨S10x8x32x8, .f32⟩
  | .hbm, ⟨46, _⟩ => ⟨S10x8x32x8, .f32⟩
  | .hbm, ⟨47, _⟩ => ⟨S10x8x32x8, .f32⟩
  | .hbm, ⟨48, _⟩ => ⟨S80x256, .f32⟩
  | .hbm, ⟨49, _⟩ => ⟨S80x256, .bf16⟩
  | .hbm, ⟨50, _⟩ => ⟨S12, .i32⟩
  | .hbm, ⟨51, _⟩ => ⟨S12x1, .i32⟩
  | .hbm, ⟨52, _⟩ => ⟨S1x32, .i32⟩
  | .hbm, ⟨53, _⟩ => ⟨S12x32, .i32⟩
  | .hbm, ⟨54, _⟩ => ⟨S12x32, .i32⟩
  | .hbm, ⟨55, _⟩ => ⟨S12x32, .i1⟩
  | .hbm, ⟨56, _⟩ => ⟨S12x32, .f32⟩
  | .hbm, ⟨57, _⟩ => ⟨S1x32, .f32⟩
  | .hbm, ⟨58, _⟩ => ⟨S12x32, .f32⟩
  | .hbm, ⟨59, _⟩ => ⟨S12x32, .f32⟩
  | .hbm, ⟨60, _⟩ => ⟨S32768x3072, .f32⟩
  | .local _ .vmem, ⟨0, _⟩ => ⟨S256x640, .f32⟩
  | .local _ .vmem, ⟨1, _⟩ => ⟨S256x640, .f32⟩
  | .local _ .vmem, ⟨2, _⟩ => ⟨S256x80, .f32⟩
  | .local _ .vmem, ⟨3, _⟩ => ⟨S256x80, .f32⟩
  | .local _ .vmem, ⟨4, _⟩ => ⟨S640x1024, .bf16⟩
  | .local _ .vmem, ⟨5, _⟩ => ⟨S80x256, .bf16⟩
  | .local _ .vmem, ⟨6, _⟩ => ⟨S12x32, .f32⟩
  | .local _ .vmem, ⟨7, _⟩ => ⟨S256x3072, .f32⟩
  | .local _ .vmem, ⟨8, _⟩ => ⟨S256x3072, .f32⟩
  | _, _ => ⟨S32768x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S640x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S80x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S32_S32x1_0 : S32.BroadcastsInDim S32x1 (![0] : Fin 1 → Fin S32x1.rank)
  bcast_S20_S1x20_1 : S20.BroadcastsInDim S1x20 (![1] : Fin 1 → Fin S1x20.rank)
  bcast_S32x1_S32x20_0_1 : S32x1.BroadcastsInDim S32x20 (![0, 1] : Fin 2 → Fin S32x20.rank)
  bcast_S1x20_S32x20_0_1 : S1x20.BroadcastsInDim S32x20 (![0, 1] : Fin 2 → Fin S32x20.rank)
  bcast_S10_S1x10_1 : S10.BroadcastsInDim S1x10 (![1] : Fin 1 → Fin S1x10.rank)
  bcast_S32x1_S32x10_0_1 : S32x1.BroadcastsInDim S32x10 (![0, 1] : Fin 2 → Fin S32x10.rank)
  bcast_S1x10_S32x10_0_1 : S1x10.BroadcastsInDim S32x10 (![0, 1] : Fin 2 → Fin S32x10.rank)
  bcast_S_S32x32 : S_.BroadcastsInDim S32x32 (![] : Fin 0 → Fin S32x32.rank)
  bcast_S_S8x8 : S_.BroadcastsInDim S8x8 (![] : Fin 0 → Fin S8x8.rank)
  transposes_S32x20_S20x32_1_0 : S32x20.Transposes [1, 0] S20x32
  bcast_S20x32_S20x1x32x1_0_2 : S20x32.BroadcastsInDim S20x1x32x1 (![0, 2] : Fin 2 → Fin S20x1x32x1.rank)
  bcast_S32x32_S1x32x1x32_1_3 : S32x32.BroadcastsInDim S1x32x1x32 (![1, 3] : Fin 2 → Fin S1x32x1x32.rank)
  bcast_S20x1x32x1_S20x32x32x32_0_1_2_3 : S20x1x32x1.BroadcastsInDim S20x32x32x32 (![0, 1, 2, 3] : Fin 4 → Fin S20x32x32x32.rank)
  bcast_S1x32x1x32_S20x32x32x32_0_1_2_3 : S1x32x1x32.BroadcastsInDim S20x32x32x32 (![0, 1, 2, 3] : Fin 4 → Fin S20x32x32x32.rank)
  shapeCasts_S20x32x32x32_S640x1024 : S20x32x32x32.ShapeCasts S640x1024
  bitsLt_bf16_f32 : FTy.bits .bf16 < FTy.bits .f32
  transposes_S32x10_S10x32_1_0 : S32x10.Transposes [1, 0] S10x32
  bcast_S10x32_S10x1x32x1_0_2 : S10x32.BroadcastsInDim S10x1x32x1 (![0, 2] : Fin 2 → Fin S10x1x32x1.rank)
  bcast_S8x8_S1x8x1x8_1_3 : S8x8.BroadcastsInDim S1x8x1x8 (![1, 3] : Fin 2 → Fin S1x8x1x8.rank)
  bcast_S10x1x32x1_S10x8x32x8_0_1_2_3 : S10x1x32x1.BroadcastsInDim S10x8x32x8 (![0, 1, 2, 3] : Fin 4 → Fin S10x8x32x8.rank)
  bcast_S1x8x1x8_S10x8x32x8_0_1_2_3 : S1x8x1x8.BroadcastsInDim S10x8x32x8 (![0, 1, 2, 3] : Fin 4 → Fin S10x8x32x8.rank)
  shapeCasts_S10x8x32x8_S80x256 : S10x8x32x8.ShapeCasts S80x256
  bcast_S12_S12x1_0 : S12.BroadcastsInDim S12x1 (![0] : Fin 1 → Fin S12x1.rank)
  bcast_S32_S1x32_1 : S32.BroadcastsInDim S1x32 (![1] : Fin 1 → Fin S1x32.rank)
  bcast_S12x1_S12x32_0_1 : S12x1.BroadcastsInDim S12x32 (![0, 1] : Fin 2 → Fin S12x32.rank)
  bcast_S1x32_S12x32_0_1 : S1x32.BroadcastsInDim S12x32 (![0, 1] : Fin 2 → Fin S12x32.rank)
  inb_S256x640_S256x640_0_0 : ∀ a, (![0, 0] : Fin 2 → Nat) a + S256x640.size a ≤ S256x640.size a
  h_S256x640 : 0 < S256x640.numel
  inb_S256x80_S256x80_0_0 : ∀ a, (![0, 0] : Fin 2 → Nat) a + S256x80.size a ≤ S256x80.size a
  h_S256x80 : 0 < S256x80.numel
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S80x256_S80x256_0_0 : ∀ a, (![0, 0] : Fin 2 → Nat) a + S80x256.size a ≤ S80x256.size a
  h_S80x256 : 0 < S80x256.numel
  shapeCasts_S80x256_S80x256 : S80x256.ShapeCasts S80x256
  shapeCasts_S256x1024_S256x32x32 : S256x1024.ShapeCasts S256x32x32
  shapeCasts_S256x256_S256x32x8 : S256x256.ShapeCasts S256x32x8
  inb_S12x32_S1x32_0_0 : ∀ a, (![0, 0] : Fin 2 → Nat) a + S1x32.size a ≤ S12x32.size a
  h_S1x32 : 0 < S1x32.numel
  shapeCasts_S1x32_S32 : S1x32.ShapeCasts S32
  shapeCasts_S32_S1x32x1 : S32.ShapeCasts S1x32x1
  broadcasts_S1x32x1_S256x32x32 : S1x32x1.Broadcasts S256x32x32
  shapeCasts_S256x32x8_S256x256 : S256x32x8.ShapeCasts S256x256
  inb_S256x3072_S256x256_0_0 : ∀ a, (![0, 0] : Fin 2 → Nat) a + S256x256.size a ≤ S256x3072.size a
  h_S256x256 : 0 < S256x256.numel
  inb_S12x32_S1x32_1_0 : ∀ a, (![1, 0] : Fin 2 → Nat) a + S1x32.size a ≤ S12x32.size a
  inb_S256x3072_S256x256_0_256 : ∀ a, (![0, 256] : Fin 2 → Nat) a + S256x256.size a ≤ S256x3072.size a
  inb_S12x32_S1x32_2_0 : ∀ a, (![2, 0] : Fin 2 → Nat) a + S1x32.size a ≤ S12x32.size a
  inb_S256x3072_S256x256_0_512 : ∀ a, (![0, 512] : Fin 2 → Nat) a + S256x256.size a ≤ S256x3072.size a
  inb_S12x32_S1x32_3_0 : ∀ a, (![3, 0] : Fin 2 → Nat) a + S1x32.size a ≤ S12x32.size a
  inb_S256x3072_S256x256_0_768 : ∀ a, (![0, 768] : Fin 2 → Nat) a + S256x256.size a ≤ S256x3072.size a
  inb_S12x32_S1x32_4_0 : ∀ a, (![4, 0] : Fin 2 → Nat) a + S1x32.size a ≤ S12x32.size a
  inb_S256x3072_S256x256_0_1024 : ∀ a, (![0, 1024] : Fin 2 → Nat) a + S256x256.size a ≤ S256x3072.size a
  inb_S12x32_S1x32_5_0 : ∀ a, (![5, 0] : Fin 2 → Nat) a + S1x32.size a ≤ S12x32.size a
  inb_S256x3072_S256x256_0_1280 : ∀ a, (![0, 1280] : Fin 2 → Nat) a + S256x256.size a ≤ S256x3072.size a
  inb_S12x32_S1x32_6_0 : ∀ a, (![6, 0] : Fin 2 → Nat) a + S1x32.size a ≤ S12x32.size a
  inb_S256x3072_S256x256_0_1536 : ∀ a, (![0, 1536] : Fin 2 → Nat) a + S256x256.size a ≤ S256x3072.size a
  inb_S12x32_S1x32_7_0 : ∀ a, (![7, 0] : Fin 2 → Nat) a + S1x32.size a ≤ S12x32.size a
  inb_S256x3072_S256x256_0_1792 : ∀ a, (![0, 1792] : Fin 2 → Nat) a + S256x256.size a ≤ S256x3072.size a
  inb_S12x32_S1x32_8_0 : ∀ a, (![8, 0] : Fin 2 → Nat) a + S1x32.size a ≤ S12x32.size a
  inb_S256x3072_S256x256_0_2048 : ∀ a, (![0, 2048] : Fin 2 → Nat) a + S256x256.size a ≤ S256x3072.size a
  inb_S12x32_S1x32_9_0 : ∀ a, (![9, 0] : Fin 2 → Nat) a + S1x32.size a ≤ S12x32.size a
  inb_S256x3072_S256x256_0_2304 : ∀ a, (![0, 2304] : Fin 2 → Nat) a + S256x256.size a ≤ S256x3072.size a
  inb_S12x32_S1x32_10_0 : ∀ a, (![10, 0] : Fin 2 → Nat) a + S1x32.size a ≤ S12x32.size a
  inb_S256x3072_S256x256_0_2560 : ∀ a, (![0, 2560] : Fin 2 → Nat) a + S256x256.size a ≤ S256x3072.size a
  inb_S12x32_S1x32_11_0 : ∀ a, (![11, 0] : Fin 2 → Nat) a + S1x32.size a ≤ S12x32.size a
  inb_S256x3072_S256x256_0_2816 : ∀ a, (![0, 2816] : Fin 2 → Nat) a + S256x256.size a ≤ S256x3072.size a
  dot_S256x640_S640x1024_S256x1024_1_0_0_1_n_n_wf : DotDims.WF S256x640 S640x1024 S256x1024 [1] [0] [0] [1] [] []
  dot_S256x80_S80x256_S256x256_1_0_0_1_n_n_wf : DotDims.WF S256x80 S80x256 S256x256 [1] [0] [0] [1] [] []
  dot_S256x32x32_S256x32x8_S256x32x8_1_1_2_2_0_0_wf : DotDims.WF S256x32x32 S256x32x8 S256x32x8 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x640.size a ≤ S32768x640.size a
  hwx0_0 : ∀ i : grid0.Coords, EltTy.bits .f32 = 32 ∨ (Rect.block (s := S32768x640) S256x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x80.size a ≤ S32768x80.size a
  hwx0_1 : ∀ i : grid0.Coords, EltTy.bits .f32 = 32 ∨ (Rect.block (s := S32768x80) S256x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x1024.size a ≤ S640x1024.size a
  hwx0_2 : ∀ i : grid0.Coords, EltTy.bits .bf16 = 32 ∨ (Rect.block (s := S640x1024) S640x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S80x256.size a ≤ S80x256.size a
  hwx0_3 : ∀ i : grid0.Coords, EltTy.bits .bf16 = 32 ∨ (Rect.block (s := S80x256) S80x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x32.size a ≤ S12x32.size a
  hwx0_4 : ∀ i : grid0.Coords, EltTy.bits .f32 = 32 ∨ (Rect.block (s := S12x32) S12x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x3072.size a ≤ S32768x3072.size a
  hwx0_5 : ∀ i : grid0.Coords, EltTy.bits .f32 = 32 ∨ (Rect.block (s := S32768x3072) S256x3072.size (cc0_transform_5 i) (hinb0_5 i)).WholeWords (EltTy.packing .f32)

variable [Facts₀]

def dot_S256x640_S640x1024_S256x1024_1_0_0_1_n_n : DotDims S256x640 S640x1024 S256x1024 where
  lhsContracting := [1]
  rhsContracting := [0]
  lhsNonContracting := [0]
  rhsNonContracting := [1]
  lhsBatch := []
  rhsBatch := []
  wf := dot_S256x640_S640x1024_S256x1024_1_0_0_1_n_n_wf
def dot_S256x80_S80x256_S256x256_1_0_0_1_n_n : DotDims S256x80 S80x256 S256x256 where
  lhsContracting := [1]
  rhsContracting := [0]
  lhsNonContracting := [0]
  rhsNonContracting := [1]
  lhsBatch := []
  rhsBatch := []
  wf := dot_S256x80_S80x256_S256x256_1_0_0_1_n_n_wf
def dot_S256x32x32_S256x32x8_S256x32x8_1_1_2_2_0_0 : DotDims S256x32x32 S256x32x8 S256x32x8 where
  lhsContracting := [1]
  rhsContracting := [1]
  lhsNonContracting := [2]
  rhsNonContracting := [2]
  lhsBatch := [0]
  rhsBatch := [0]
  wf := dot_S256x32x32_S256x32x8_S256x32x8_1_1_2_2_0_0_wf

abbrev win0_0 : Pipeline.Window sig grid0 :=
  Pipeline.Window.ofSpec (Memref.whole main_arg0) S256x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S640x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S80x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S12x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S256x3072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x640 : Shape := ⟨2, ![32768, 640]⟩
abbrev S32768x80 : Shape := ⟨2, ![32768, 80]⟩
abbrev S32 : Shape := ⟨1, ![32]⟩
abbrev S32768x20x32 : Shape := ⟨3, ![32768, 20, 32]⟩
abbrev S_ : Shape := ⟨0, ![]⟩
abbrev S32x1 : Shape := ⟨2, ![32, 1]⟩
abbrev S32768x32x32 : Shape := ⟨3, ![32768, 32, 32]⟩
abbrev S32768x10x8 : Shape := ⟨3, ![32768, 10, 8]⟩
abbrev S32768x32x8 : Shape := ⟨3, ![32768, 32, 8]⟩
abbrev S1x32x1x1 : Shape := ⟨4, ![1, 32, 1, 1]⟩
abbrev S32768x32x32x1 : Shape := ⟨4, ![32768, 32, 32, 1]⟩
abbrev S32768x32x1x8 : Shape := ⟨4, ![32768, 32, 1, 8]⟩
abbrev S32768x32x32x8 : Shape := ⟨4, ![32768, 32, 32, 8]⟩
abbrev S32x32768x32x8 : Shape := ⟨4, ![32, 32768, 32, 8]⟩
abbrev S12x32768x32x8 : Shape := ⟨4, ![12, 32768, 32, 8]⟩
abbrev S32768x12x32x8 : Shape := ⟨4, ![32768, 12, 32, 8]⟩
abbrev S32768x3072 : Shape := ⟨2, ![32768, 3072]⟩

abbrev nBuf : Space → Nat
  | .hbm => 41
  | .vmem => 0
  | .smem => 0
  | _ => 0

abbrev bufTy : (tb : Table) → Fin (tcTables nBuf tb) → BufTy
  | .hbm, ⟨0, _⟩ => ⟨S32768x640, .f32⟩
  | .hbm, ⟨1, _⟩ => ⟨S32768x80, .f32⟩
  | .hbm, ⟨2, _⟩ => ⟨S32, .f32⟩
  | .hbm, ⟨3, _⟩ => ⟨S32, .i32⟩
  | .hbm, ⟨4, _⟩ => ⟨S32, .i32⟩
  | .hbm, ⟨5, _⟩ => ⟨S32, .i32⟩
  | .hbm, ⟨6, _⟩ => ⟨S32768x20x32, .f32⟩
  | .hbm, ⟨7, _⟩ => ⟨S_, .i32⟩
  | .hbm, ⟨8, _⟩ => ⟨S32, .i32⟩
  | .hbm, ⟨9, _⟩ => ⟨S32, .i1⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32x1, .i32⟩
  | .hbm, ⟨15, _⟩ => ⟨S32768x32x32, .f32⟩
  | .hbm, ⟨16, _⟩ => ⟨S32768x10x8, .f32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S_, .i32⟩
  | .hbm, ⟨21, _⟩ => ⟨S32, .i32⟩
  | .hbm, ⟨22, _⟩ => ⟨S32, .i32⟩
  | .hbm, ⟨23, _⟩ => ⟨S32, .i32⟩
  | .hbm, ⟨24, _⟩ => ⟨S32x1, .i32⟩
  | .hbm, ⟨25, _⟩ => ⟨S32768x32x8, .f32⟩
  | .hbm, ⟨26, _⟩ => ⟨S1x32x1x1, .f32⟩
  | .hbm, ⟨27, _⟩ => ⟨S32768x32x32x1, .f32⟩
  | .hbm, ⟨28, _⟩ => ⟨S32768x32x32x1, .f32⟩
  | .hbm, ⟨29, _⟩ => ⟨S32768x32x32x1, .f32⟩
  | .hbm, ⟨30, _⟩ => ⟨S32768x32x1x8, .f32⟩
  | .hbm, ⟨31, _⟩ => ⟨S32768x32x32x8, .f32⟩
  | .hbm, ⟨32, _⟩ => ⟨S32768x32x32x8, .f32⟩
  | .hbm, ⟨33, _⟩ => ⟨S32768x32x32x8, .f32⟩
  | .hbm, ⟨34, _⟩ => ⟨S32x32768x32x8, .f32⟩
  | .hbm, ⟨35, _⟩ => ⟨S_, .f32⟩
  | .hbm, ⟨36, _⟩ => ⟨S12x32768x32x8, .f32⟩
  | .hbm, ⟨37, _⟩ => ⟨S32x1, .i32⟩
  | .hbm, ⟨38, _⟩ => ⟨S12x32768x32x8, .f32⟩
  | .hbm, ⟨39, _⟩ => ⟨S32768x12x32x8, .f32⟩
  | .hbm, ⟨40, _⟩ => ⟨S32768x3072, .f32⟩
  | _, _ => ⟨S32768x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  shapeCasts_S32768x640_S32768x20x32 : S32768x640.ShapeCasts S32768x20x32
  bcast_S_S32 : S_.BroadcastsInDim S32 (![] : Fin 0 → Fin S32.rank)
  bcast_S32_S32x1_0 : S32.BroadcastsInDim S32x1 (![0] : Fin 1 → Fin S32x1.rank)
  shapeCasts_S32768x80_S32768x10x8 : S32768x80.ShapeCasts S32768x10x8
  bcast_S32_S1x32x1x1_1 : S32.BroadcastsInDim S1x32x1x1 (![1] : Fin 1 → Fin S1x32x1x1.rank)
  bcast_S32768x32x32_S32768x32x32x1_0_1_2 : S32768x32x32.BroadcastsInDim S32768x32x32x1 (![0, 1, 2] : Fin 3 → Fin S32768x32x32x1.rank)
  bcast_S1x32x1x1_S32768x32x32x1_0_1_2_3 : S1x32x1x1.BroadcastsInDim S32768x32x32x1 (![0, 1, 2, 3] : Fin 4 → Fin S32768x32x32x1.rank)
  bcast_S32768x32x8_S32768x32x1x8_0_1_3 : S32768x32x8.BroadcastsInDim S32768x32x1x8 (![0, 1, 3] : Fin 3 → Fin S32768x32x1x8.rank)
  bcast_S32768x32x32x1_S32768x32x32x8_0_1_2_3 : S32768x32x32x1.BroadcastsInDim S32768x32x32x8 (![0, 1, 2, 3] : Fin 4 → Fin S32768x32x32x8.rank)
  bcast_S32768x32x1x8_S32768x32x32x8_0_1_2_3 : S32768x32x1x8.BroadcastsInDim S32768x32x32x8 (![0, 1, 2, 3] : Fin 4 → Fin S32768x32x32x8.rank)
  transposes_S32768x32x32x8_S32x32768x32x8_1_0_2_3 : S32768x32x32x8.Transposes [1, 0, 2, 3] S32x32768x32x8
  bcast_S_S12x32768x32x8 : S_.BroadcastsInDim S12x32768x32x8 (![] : Fin 0 → Fin S12x32768x32x8.rank)
  transposes_S12x32768x32x8_S32768x12x32x8_1_0_2_3 : S12x32768x32x8.Transposes [1, 0, 2, 3] S32768x12x32x8
  shapeCasts_S32768x12x32x8_S32768x3072 : S32768x12x32x8.ShapeCasts S32768x3072
  gather_S32768x20x32_S32x1_S32768x32x32_02_1_n_n_1_1_32768132_wf : GatherDims.WF S32768x20x32 S32x1 S32768x32x32 [0, 2] [1] [] [1] [] 1 ![32768, 1, 32]
  gather_S32768x10x8_S32x1_S32768x32x8_02_1_n_n_1_1_3276818_wf : GatherDims.WF S32768x10x8 S32x1 S32768x32x8 [0, 2] [1] [] [1] [] 1 ![32768, 1, 8]
  scatter_S12x32768x32x8_S32x1_S32x32768x32x8_123_0_0_1_wf : ScatterDims.WF S12x32768x32x8 S32x1 S32x32768x32x8 [1, 2, 3] [0] [0] 1

variable [Facts₀]

def gather_S32768x20x32_S32x1_S32768x32x32_02_1_n_n_1_1_32768132 : GatherDims S32768x20x32 S32x1 S32768x32x32 where
  offsetDims := [0, 2]
  collapsedSliceDims := [1]
  operandBatchingDims := []
  startIndicesBatchingDims := []
  startIndexMap := [1]
  indexVectorDim := 1
  sliceSizes := ![32768, 1, 32]
  wf := gather_S32768x20x32_S32x1_S32768x32x32_02_1_n_n_1_1_32768132_wf
def gather_S32768x10x8_S32x1_S32768x32x8_02_1_n_n_1_1_3276818 : GatherDims S32768x10x8 S32x1 S32768x32x8 where
  offsetDims := [0, 2]
  collapsedSliceDims := [1]
  operandBatchingDims := []
  startIndicesBatchingDims := []
  startIndexMap := [1]
  indexVectorDim := 1
  sliceSizes := ![32768, 1, 8]
  wf := gather_S32768x10x8_S32x1_S32768x32x8_02_1_n_n_1_1_3276818_wf
def scatter_S12x32768x32x8_S32x1_S32x32768x32x8_123_0_0_1 : ScatterDims S12x32768x32x8 S32x1 S32x32768x32x8 where
  updateWindowDims := [1, 2, 3]
  insertedWindowDims := [0]
  scatterDimsToOperandDims := [0]
  indexVectorDim := 1
  wf := scatter_S12x32768x32x8_S32x1_S32x32768x32x8_123_0_0_1_wf

class Facts : Prop extends Facts₀ where

variable [Facts]
-- ==== Proof.Spec.lean ====
/-
  The segmented tensor product 'u,v,uv' as plain sums over the extended reals: the one function both programs compute,
  and the intermediate forms the kernel's side passes through on the way to it.

  Shapes: x0 : [32768, 640] is 20 segments of 32 entries per row, x1 : [32768, 80] is 10 segments of 8, the result
  [32768, 3072] is 12 segments of 32·8. Path p (of 32) reads segment g0 p of x0 and segment g1 p of x1, scales their outer
  product by the coefficient c p and adds it to output segment i2 p (a path whose i2 p is no segment is dropped).
-/
import Idealize.ShloMosaic.PureOps.Ideal
import Idealize.ShloMosaic.Lib.ValueIdx
import Idealize.ShloMosaic.Lib.StableHlo.Predicate

noncomputable section

open scoped BigOperators

namespace Cert.TP

open Idealize.ShloMosaic Idealize.ShloMosaic.ValueIdx

/-- Column s·32 + u of a row of x0: entry u of segment s. -/
def col0 (s : Fin 20) (u : Fin 32) : Fin 640 := ⟨s.val * 32 + u.val, by omega⟩
/-- Column s·8 + v of a row of x1: entry v of segment s. -/
def col1 (s : Fin 10) (v : Fin 8) : Fin 80 := ⟨s.val * 8 + v.val, by omega⟩
/-- Column p·32 + u of the 1024 gathered columns: entry u of path p. -/
def colA (p u : Fin 32) : Fin 1024 := ⟨p.val * 32 + u.val, by omega⟩
/-- Column p·8 + v of the 256 gathered columns (entry v of path p); also position u·8 + v inside one output segment. -/
def colB (p : Fin 32) (v : Fin 8) : Fin 256 := ⟨p.val * 8 + v.val, by omega⟩
/-- Column s·256 + u·8 + v of the result: entry (u, v) of output segment s. -/
def colOut (s : Fin 12) (u : Fin 32) (v : Fin 8) : Fin 3072 := ⟨s.val * 256 + u.val * 8 + v.val, by omega⟩

/-- The output segment, and the two coordinates inside it, of a result column. -/
def segOf (q : Fin 3072) : Fin 12 := ⟨q.val / 256, by omega⟩
def uOf (q : Fin 3072) : Fin 32 := ⟨q.val % 256 / 8, by omega⟩
def vOf (q : Fin 3072) : Fin 8 := ⟨q.val % 8, by omega⟩

theorem colOut_segOf (q : Fin 3072) : colOut (segOf q) (uOf q) (vOf q) = q := by
  apply Fin.ext; simp only [colOut, segOf, uOf, vOf]; omega

theorem segOf_colOut (s : Fin 12) (u : Fin 32) (v : Fin 8) : segOf (colOut s u v) = s := by
  apply Fin.ext; simp only [colOut, segOf]; omega
theorem uOf_colOut (s : Fin 12) (u : Fin 32) (v : Fin 8) : uOf (colOut s u v) = u := by
  apply Fin.ext; simp only [colOut, uOf]; omega
theorem vOf_colOut (s : Fin 12) (u : Fin 32) (v : Fin 8) : vOf (colOut s u v) = v := by
  apply Fin.ext; simp only [colOut, vOf]; omega

/-! ## The product itself -/

/-- Entry (u, v) of output segment s in row n: the sum over the paths that land on s of c p · x0[n, g0 p, u] · x1[n, g1 p, v]. -/
def tpAt (x0 : (⟨2, ![32768, 640]⟩ : Shape).Idx → EReal) (x1 : (⟨2, ![32768, 80]⟩ : Shape).Idx → EReal)
    (cf : (⟨1, ![32]⟩ : Shape).Idx → EReal) (g0 : Fin 32 → Fin 20) (g1 : Fin 32 → Fin 10) (i2 : IVec ⟨1, ![32]⟩ 32)
    (n : Fin 32768) (s : Fin 12) (u : Fin 32) (v : Fin 8) : EReal :=
  ∑ p : Fin 32, if (i2 (ix1 p)).toInt = (s.val : ℤ) then
    (cf (ix1 p) * x0 (ix2 n (col0 (g0 p) u))) * x1 (ix2 n (col1 (g1 p) v)) else 0

/-- The whole result array. -/
def tp (x0 : (⟨2, ![32768, 640]⟩ : Shape).Idx → EReal) (x1 : (⟨2, ![32768, 80]⟩ : Shape).Idx → EReal)
    (cf : (⟨1, ![32]⟩ : Shape).Idx → EReal) (g0 : Fin 32 → Fin 20) (g1 : Fin 32 → Fin 10) (i2 : IVec ⟨1, ![32]⟩ 32) :
    (⟨2, ![32768, 3072]⟩ : Shape).Idx → EReal :=
  fun i => tpAt x0 x1 cf g0 g1 i2 (i 0) (segOf (i 1)) (uOf (i 1)) (vOf (i 1))

/-! ## The kernel's route: two selection products, then a weighted contraction over the paths -/

/-- From R rows of x0 and x1, a [640, 1024] matrix W0, an [80, 256] matrix W1 and a [12, 32] weight table O2:
    entry (u, v) of output segment s in row n is the sum over paths p of
    ((x0[n, ·] · W0[·, p·32 + u]) · O2[s, p]) · (x1[n, ·] · W1[·, p·8 + v]). -/
def kAt {R : ℕ} (X0 : (⟨2, ![R, 640]⟩ : Shape).Idx → EReal) (X1 : (⟨2, ![R, 80]⟩ : Shape).Idx → EReal)
    (W0 : (⟨2, ![640, 1024]⟩ : Shape).Idx → EReal) (W1 : (⟨2, ![80, 256]⟩ : Shape).Idx → EReal)
    (O2 : (⟨2, ![12, 32]⟩ : Shape).Idx → EReal) (n : Fin R) (s : Fin 12) (u : Fin 32) (v : Fin 8) : EReal :=
  ∑ p : Fin 32, ((∑ k : Fin 640, X0 (ix2 n k) * W0 (ix2 k (colA p u))) * O2 (ix2 s p))
    * (∑ k : Fin 80, X1 (ix2 n k) * W1 (ix2 k (colB p v)))

/-- The same as an [R, 3072] array. -/
def kArr {R : ℕ} (X0 : (⟨2, ![R, 640]⟩ : Shape).Idx → EReal) (X1 : (⟨2, ![R, 80]⟩ : Shape).Idx → EReal)
    (W0 : (⟨2, ![640, 1024]⟩ : Shape).Idx → EReal) (W1 : (⟨2, ![80, 256]⟩ : Shape).Idx → EReal)
    (O2 : (⟨2, ![12, 32]⟩ : Shape).Idx → EReal) : (⟨2, ![R, 3072]⟩ : Shape).Idx → EReal :=
  fun i => kAt X0 X1 W0 W1 O2 (i 0) (segOf (i 1)) (uOf (i 1)) (vOf (i 1))

/-! ## The three tables the kernel's host side builds from the index vectors -/

/-- W0[s·32 + u, p·32 + u'] is 1 when path p reads segment s of x0 and u = u', else 0: a product of two 0/1 factors. -/
def sel0 (i0 : IVec ⟨1, ![32]⟩ 32) : (⟨2, ![640, 1024]⟩ : Shape).Idx → EReal := fun i =>
  (if (i0 (ix1 (⟨(i 1).val / 32, Nat.div_lt_of_lt_mul (i 1).isLt⟩ : Fin 32))).toInt = (((i 0).val / 32 : ℕ) : ℤ) then (1 : EReal) else 0)
    * (if (i 0).val % 32 = (i 1).val % 32 then (1 : EReal) else 0)

/-- W1[s·8 + v, p·8 + v'] is 1 when path p reads segment s of x1 and v = v', else 0. -/
def sel1 (i1 : IVec ⟨1, ![32]⟩ 32) : (⟨2, ![80, 256]⟩ : Shape).Idx → EReal := fun i =>
  (if (i1 (ix1 (⟨(i 1).val / 8, Nat.div_lt_of_lt_mul (i 1).isLt⟩ : Fin 32))).toInt = (((i 0).val / 8 : ℕ) : ℤ) then (1 : EReal) else 0)
    * (if (i 0).val % 8 = (i 1).val % 8 then (1 : EReal) else 0)

/-- O2[s, p] is the coefficient of path p when it lands on output segment s, else 0 · that coefficient. -/
def oh2c (i2 : IVec ⟨1, ![32]⟩ 32) (cf : (⟨1, ![32]⟩ : Shape).Idx → EReal) : (⟨2, ![12, 32]⟩ : Shape).Idx → EReal := fun i =>
  (if (i2 (ix1 (i 1))).toInt = (((i 0).val : ℕ) : ℤ) then (1 : EReal) else 0) * cf (ix1 (i 1))

/-- A 32-bit word equals the word of a small number exactly when it reads, signed, as that number. -/
theorem eq_ofNat_iff_toInt (a : BitVec 32) (n : ℕ) (hn : n < 2 ^ 31) : a = BitVec.ofNat 32 n ↔ a.toInt = (n : ℤ) := by
  constructor
  · rintro rfl
    exact StableHlo.Predicate.toInt_ofNat_small n hn
  · intro h
    apply BitVec.eq_of_toInt_eq
    rw [h, StableHlo.Predicate.toInt_ofNat_small n hn]

end Cert.TP

end
-- ==== Proof.Algebra.lean ====
/- With the three tables the host side builds, the kernel's route computes the segmented tensor product. -/
import proofs.«404265_j52879637348698_1_alg».proof.Proof.Spec

noncomputable section

open scoped BigOperators

namespace Cert.TP

open Idealize.ShloMosaic Idealize.ShloMosaic.TcCoe Idealize.SL.Sem Idealize.ShloMosaic.ValueIdx

/-- Column p·32 + u lies in block p of width 32 ... -/
theorem colA_div (p u : Fin 32) : (colA p u).val / 32 = p.val := by simp only [colA]; omega
/-- ... at offset u. -/
theorem colA_mod (p u : Fin 32) : (colA p u).val % 32 = u.val := by simp only [colA]; omega
/-- Column p·8 + v lies in block p of width 8 ... -/
theorem colB_div (p : Fin 32) (v : Fin 8) : (colB p v).val / 8 = p.val := by simp only [colB]; omega
/-- ... at offset v. -/
theorem colB_mod (p : Fin 32) (v : Fin 8) : (colB p v).val % 8 = v.val := by simp only [colB]; omega

/-- The x0 selection table at row k, column p·32 + u. -/
theorem sel0_apply (i0 : IVec ⟨1, ![32]⟩ 32) (k : Fin 640) (p u : Fin 32) :
    sel0 i0 (ix2 k (colA p u)) =
      (if (i0 (ix1 p)).toInt = ((k.val / 32 : ℕ) : ℤ) then (1 : EReal) else 0)
        * (if k.val % 32 = u.val then (1 : EReal) else 0) := by
  have h1 : (⟨(colA p u).val / 32, Nat.div_lt_of_lt_mul (colA p u).isLt⟩ : Fin 32) = p :=
    Fin.ext (colA_div p u)
  show (if (i0 (ix1 (⟨(colA p u).val / 32, Nat.div_lt_of_lt_mul (colA p u).isLt⟩ : Fin 32))).toInt
      = ((k.val / 32 : ℕ) : ℤ) then (1 : EReal) else 0)
    * (if k.val % 32 = (colA p u).val % 32 then (1 : EReal) else 0) = _
  rw [h1, colA_mod]

/-- The x1 selection table at row k, column p·8 + v. -/
theorem sel1_apply (i1 : IVec ⟨1, ![32]⟩ 32) (k : Fin 80) (p : Fin 32) (v : Fin 8) :
    sel1 i1 (ix2 k (colB p v)) =
      (if (i1 (ix1 p)).toInt = ((k.val / 8 : ℕ) : ℤ) then (1 : EReal) else 0)
        * (if k.val % 8 = v.val then (1 : EReal) else 0) := by
  have h1 : (⟨(colB p v).val / 8, Nat.div_lt_of_lt_mul (colB p v).isLt⟩ : Fin 32) = p :=
    Fin.ext (colB_div p v)
  show (if (i1 (ix1 (⟨(colB p v).val / 8, Nat.div_lt_of_lt_mul (colB p v).isLt⟩ : Fin 32))).toInt
      = ((k.val / 8 : ℕ) : ℤ) then (1 : EReal) else 0)
    * (if k.val % 8 = (colB p v).val % 8 then (1 : EReal) else 0) = _
  rw [h1, colB_mod]

/-- The weight table at segment s, path p. -/
theorem oh2c_apply (i2 : IVec ⟨1, ![32]⟩ 32) (cf : (⟨1, ![32]⟩ : Shape).Idx → EReal) (s : Fin 12) (p : Fin 32) :
    oh2c i2 cf (ix2 s p) = (if (i2 (ix1 p)).toInt = (s.val : ℤ) then (1 : EReal) else 0) * cf (ix1 p) := rfl

/-- A row of x0 times the selection table picks the entry u of segment g0 p. -/
theorem sum_sel0 {R : ℕ} (X0 : (⟨2, ![R, 640]⟩ : Shape).Idx → EReal) (i0 : IVec ⟨1, ![32]⟩ 32) (g0 : Fin 32 → Fin 20)
    (hg0 : ∀ p : Fin 32, (i0 (ix1 p)).toInt = ((g0 p).val : ℤ)) (n : Fin R) (p u : Fin 32) :
    ∑ k : Fin 640, X0 (ix2 n k) * sel0 i0 (ix2 k (colA p u)) = X0 (ix2 n (col0 (g0 p) u)) := by
  rw [Finset.sum_eq_single (col0 (g0 p) u)]
  · have e1 : (col0 (g0 p) u).val / 32 = (g0 p).val := by simp only [col0]; omega
    have e2 : (col0 (g0 p) u).val % 32 = u.val := by simp only [col0]; omega
    rw [sel0_apply, e1, e2, if_pos (hg0 p), if_pos rfl, mul_one, mul_one]
  · intro k _ hk
    rw [sel0_apply]
    by_cases h1 : (i0 (ix1 p)).toInt = ((k.val / 32 : ℕ) : ℤ)
    · by_cases h2 : k.val % 32 = u.val
      · exfalso
        apply hk
        apply Fin.ext
        rw [hg0 p] at h1
        have h3 : (g0 p).val = k.val / 32 := by exact_mod_cast h1
        simp only [col0]
        omega
      · rw [if_neg h2, mul_zero, mul_zero]
    · rw [if_neg h1, zero_mul, mul_zero]
  · intro h; exact absurd (Finset.mem_univ _) h

/-- A row of x1 times the selection table picks the entry v of segment g1 p. -/
theorem sum_sel1 {R : ℕ} (X1 : (⟨2, ![R, 80]⟩ : Shape).Idx → EReal) (i1 : IVec ⟨1, ![32]⟩ 32) (g1 : Fin 32 → Fin 10)
    (hg1 : ∀ p : Fin 32, (i1 (ix1 p)).toInt = ((g1 p).val : ℤ)) (n : Fin R) (p : Fin 32) (v : Fin 8) :
    ∑ k : Fin 80, X1 (ix2 n k) * sel1 i1 (ix2 k (colB p v)) = X1 (ix2 n (col1 (g1 p) v)) := by
  rw [Finset.sum_eq_single (col1 (g1 p) v)]
  · have e1 : (col1 (g1 p) v).val / 8 = (g1 p).val := by simp only [col1]; omega
    have e2 : (col1 (g1 p) v).val % 8 = v.val := by simp only [col1]; omega
    rw [sel1_apply, e1, e2, if_pos (hg1 p), if_pos rfl, mul_one, mul_one]
  · intro k _ hk
    rw [sel1_apply]
    by_cases h1 : (i1 (ix1 p)).toInt = ((k.val / 8 : ℕ) : ℤ)
    · by_cases h2 : k.val % 8 = v.val
      · exfalso
        apply hk
        apply Fin.ext
        rw [hg1 p] at h1
        have h3 : (g1 p).val = k.val / 8 := by exact_mod_cast h1
        simp only [col1]
        omega
      · rw [if_neg h2, mul_zero, mul_zero]
    · rw [if_neg h1, zero_mul, mul_zero]
  · intro h; exact absurd (Finset.mem_univ _) h

/-- Selection by a 0/1 matrix picks one entry of a row; a 0/1 weight keeps or drops a path. -/
theorem kArr_tables_eq_tp (X0 : (⟨2, ![32768, 640]⟩ : Shape).Idx → EReal) (X1 : (⟨2, ![32768, 80]⟩ : Shape).Idx → EReal)
    (cf : (⟨1, ![32]⟩ : Shape).Idx → EReal) (i0 i1 i2 : IVec ⟨1, ![32]⟩ 32)
    (g0 : Fin 32 → Fin 20) (g1 : Fin 32 → Fin 10)
    (hg0 : ∀ p : Fin 32, (i0 (ix1 p)).toInt = ((g0 p).val : ℤ)) (hg1 : ∀ p : Fin 32, (i1 (ix1 p)).toInt = ((g1 p).val : ℤ)) :
    kArr X0 X1 (sel0 i0) (sel1 i1) (oh2c i2 cf) = tp X0 X1 cf g0 g1 i2 := by
  funext i
  obtain ⟨n, q, rfl⟩ : ∃ (n : Fin 32768) (q : Fin 3072), i = ix2 n q := ⟨i 0, i 1, eq_ix2 i⟩
  show kAt X0 X1 (sel0 i0) (sel1 i1) (oh2c i2 cf) n (segOf q) (uOf q) (vOf q)
    = tpAt X0 X1 cf g0 g1 i2 n (segOf q) (uOf q) (vOf q)
  unfold kAt tpAt
  refine Finset.sum_congr rfl fun p _ => ?_
  rw [sum_sel0 X0 i0 g0 hg0, sum_sel1 X1 i1 g1 hg1, oh2c_apply]
  by_cases h : (i2 (ix1 p)).toInt = ((segOf q).val : ℤ)
  · rw [if_pos h, if_pos h, one_mul, mul_comm (X0 _) (cf _)]
  · rw [if_neg h, if_neg h, zero_mul, mul_zero, zero_mul]

end Cert.TP

end
-- ==== Proof.PreFacts.lean ====
/- What the precondition says of the two gather index vectors: every entry names a segment of its array. -/
import proofs.«404265_j52879637348698_1_alg».proof.Pre_finite_inputs
import proofs.«404265_j52879637348698_1_alg».proof.Proof.Spec
import Idealize.ShloMosaic.Lib.ReduceAll

noncomputable section

open scoped BigOperators

namespace Cert.PreFacts

open Idealize.ShloMosaic Idealize.ShloMosaic.TcCoe Idealize.SL.Sem Idealize.ShloMosaic.ValueIdx

/-- The scalar shape has one index. -/
instance : Subsingleton Cert.Pre_finite_inputs.S_.Idx := ⟨fun a b => funext fun d => d.elim0⟩

/-- A word that tests at least 0 and below n, both signed, reads signed as a number in [0, n). -/
theorem range_of_tests (w : BitVec 32) (n : ℕ) (hn : n < 2 ^ 31) (h0 : IntOp.cmpi .sge w 0#32 = 1#1)
    (h1 : IntOp.cmpi .slt w (BitVec.ofNat 32 n) = 1#1) : 0 ≤ w.toInt ∧ w.toInt < (n : ℤ) := by
  rw [IntOp.cmpi_sge] at h0
  rw [IntOp.cmpi_slt, StableHlo.Predicate.toInt_ofNat_small n hn] at h1
  have z : (0#32 : BitVec 32).toInt = 0 := by decide
  rw [z] at h0
  exact ⟨h0, h1⟩

theorem ranges_of_pre [Cert.Pre_finite_inputs.Facts]
    (x0 : FVec Ideal ⟨2, ![32768, 640]⟩ .f32) (x1 : FVec Ideal ⟨2, ![32768, 80]⟩ .f32) (x2 : FVec Ideal ⟨1, ![32]⟩ .f32)
    (x3 x4 x5 : IVec ⟨1, ![32]⟩ 32)
    (h : Cert.Pre_finite_inputs.fn (F := Ideal) x0 x1 x2 x3 x4 x5 = fun _ => 1#1) :
    (∃ g0 : Fin 32 → Fin 20, ∀ p : Fin 32, (x3 (ix1 p)).toInt = ((g0 p).val : ℤ))
      ∧ (∃ g1 : Fin 32 → Fin 10, ∀ p : Fin 32, (x4 (ix1 p)).toInt = ((g1 p).val : ℤ)) := by
  have h0 := congrFun h ix0
  dsimp only [Cert.Pre_finite_inputs.fn, Cert.Pre_finite_inputs.fn_part1] at h0
  -- the conjunction splits: only the four integer range tests are used
  obtain ⟨h1, t4⟩ := IntOp.andi_eq_one.1 h0
  obtain ⟨h2, t3⟩ := IntOp.andi_eq_one.1 h1
  obtain ⟨h3, t2⟩ := IntOp.andi_eq_one.1 h2
  obtain ⟨-, t1⟩ := IntOp.andi_eq_one.1 h3
  -- each test holds at every entry
  have r0 : ∀ p : Fin 32, 0 ≤ (x3 (ix1 p)).toInt ∧ (x3 (ix1 p)).toInt < ((20 : ℕ) : ℤ) := fun p =>
    range_of_tests _ 20 (by norm_num) (Host.reduce_andi_all _ _ _ _ _ t1 (ix1 p)) (Host.reduce_andi_all _ _ _ _ _ t2 (ix1 p))
  have r1 : ∀ p : Fin 32, 0 ≤ (x4 (ix1 p)).toInt ∧ (x4 (ix1 p)).toInt < ((10 : ℕ) : ℤ) := fun p =>
    range_of_tests _ 10 (by norm_num) (Host.reduce_andi_all _ _ _ _ _ t3 (ix1 p)) (Host.reduce_andi_all _ _ _ _ _ t4 (ix1 p))
  refine ⟨⟨fun p => ⟨(x3 (ix1 p)).toInt.toNat, ?_⟩, fun p => ?_⟩, ⟨fun p => ⟨(x4 (ix1 p)).toInt.toNat, ?_⟩, fun p => ?_⟩⟩
  · have := r0 p; omega
  · exact (Int.toNat_of_nonneg (r0 p).1).symm
  · have := r1 p; omega
  · exact (Int.toNat_of_nonneg (r1 p).1).symm

end Cert.PreFacts

end
-- ==== Proof.LibScatterSlabs.lean ====
/-
  A float scatter-add of whole SLABS along the leading axis of a rank-4 array, read at an index, at the ideal values.

  The scatter `operand[idx[p, 0], :, :, :] += updates[p, :, :, :]` — operand `[S, N, U, V]`, scatter indices `[P, 1]`,
  updates `[P, N, U, V]` — is what `jax.ops.segment_sum` of a rank-4 array along its leading axis lowers to. At the extended
  reals element `(s, n, u, v)` of the result is the operand's plus the sum over ALL update slabs `p` of `updates[p, n, u, v]`
  where `idx[p, 0]`, read signed, is `s`, and of zero elsewhere (an index that names no slab is dropped): a masked sum over
  the slabs. With it, the splitting of a sum over a rank-4 index set into a fourfold sum.
-/
import Idealize.ShloMosaic.PureOps.Ideal
import Idealize.ShloMosaic.Lib.ValueIdx

noncomputable section

open scoped BigOperators

namespace Cert.RefValue

open Idealize.ShloMosaic Idealize.ShloMosaic.ValueIdx

/-! ## A rank-4 index set is the product of its coordinate ranges -/

section Sum4

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Sum4

/-! ## A float scatter-add of whole slabs along the leading axis, read at an index

The scatter `operand[idx[p, 0], :, :, :] += updates[p, :, :, :]` — operand `[S, N, U, V]`, scatter indices `[P, 1]`, updates
`[P, N, U, V]`, update window axes `[1, 2, 3]`, inserted window axis `[0]`, scatter-dims-to-operand-dims `[0]`, index vector
axis `1`. Update element `(p, n, u, v)` lands on operand element `(idx[p, 0], n, u, v)` when the index, read signed, names a
slab of the operand, and is dropped otherwise. -/

section ScatterSlabs

variable {S P N U V w : Nat}

/-- The dimension numbers of a slab scatter over operand `[S, N, U, V]`, scatter indices `[P, 1]` and updates
    `[P, N, U, V]`. -/
abbrev slabDims (S P N U V : Nat)
    (wf : ScatterDims.WF ⟨4, ![S, N, U, V]⟩ ⟨2, ![P, 1]⟩ ⟨4, ![P, N, U, V]⟩ [1, 2, 3] [0] [0] 1) :
    ScatterDims ⟨4, ![S, N, U, V]⟩ ⟨2, ![P, 1]⟩ ⟨4, ![P, N, U, V]⟩ where
  updateWindowDims := [1, 2, 3]
  insertedWindowDims := [0]
  scatterDimsToOperandDims := [0]
  indexVectorDim := 1
  wf := wf

variable (wf : ScatterDims.WF ⟨4, ![S, N, U, V]⟩ ⟨2, ![P, 1]⟩ ⟨4, ![P, N, U, V]⟩ [1, 2, 3] [0] [0] 1)

/-- The scatter-indices index `[p, 0]` that update slab `p` reads its start from. -/
abbrev slabIdx (p : Fin P) : (⟨2, ![P, 1]⟩ : Shape).Idx := ix2 p ⟨0, Nat.one_pos⟩

/-- On the leading axis the window starts at the scatter index of the update's slab, read signed. -/
theorem slab_start_0 (j : (⟨4, ![P, N, U, V]⟩ : Shape).Idx) (idx : IVec ⟨2, ![P, 1]⟩ w) :
    (slabDims S P N U V wf).start j idx 0 = (idx (slabIdx (j 0))).toInt := by
  unfold ScatterDims.start
  rw [dif_pos (show (0 : Fin 4) ∈ (slabDims S P N U V wf).scatterDimsToOperandDims from List.mem_singleton.mpr rfl)]
  have hsi : (slabDims S P N U V wf).siIdx j ⟨List.idxOf (0 : Fin 4) (slabDims S P N U V wf).scatterDimsToOperandDims,
      List.idxOf_lt_length_iff.2 (List.mem_singleton.mpr rfl)⟩ = slabIdx (j 0) := by
    funext b; refine Fin.ext ?_
    match b with
    | ⟨0, _⟩ => rfl
    | ⟨1, _⟩ => rfl
  rw [hsi]
  rfl

/-- On the other axes, which the index map does not name, the window starts at zero. -/
theorem slab_start_1 (j : (⟨4, ![P, N, U, V]⟩ : Shape).Idx) (idx : IVec ⟨2, ![P, 1]⟩ w) :
    (slabDims S P N U V wf).start j idx 1 = 0 := by
  unfold ScatterDims.start
  rw [dif_neg (show ¬ (1 : Fin 4) ∈ ([0] : List (Fin 4)) by decide)]
theorem slab_start_2 (j : (⟨4, ![P, N, U, V]⟩ : Shape).Idx) (idx : IVec ⟨2, ![P, 1]⟩ w) :
    (slabDims S P N U V wf).start j idx 2 = 0 := by
  unfold ScatterDims.start
  rw [dif_neg (show ¬ (2 : Fin 4) ∈ ([0] : List (Fin 4)) by decide)]
theorem slab_start_3 (j : (⟨4, ![P, N, U, V]⟩ : Shape).Idx) (idx : IVec ⟨2, ![P, 1]⟩ w) :
    (slabDims S P N U V wf).start j idx 3 = 0 := by
  unfold ScatterDims.start
  rw [dif_neg (show ¬ (3 : Fin 4) ∈ ([0] : List (Fin 4)) by decide)]

/-- The leading axis is inserted: no window coordinate on it. -/
theorem slab_window_0 (j : (⟨4, ![P, N, U, V]⟩ : Shape).Idx) : (slabDims S P N U V wf).window j 0 = 0 := by
  unfold ScatterDims.window
  have h : ¬ (0 : Fin 4) ∈ (slabDims S P N U V wf).sKept := by
    show ¬ (0 : Fin 4) ∈ (List.finRange 4).filter (· ∉ ([0] : List (Fin 4)))
    decide
  rw [dif_neg h]

/-- Each other axis carries the update's coordinate on it. -/
theorem slab_window_1 (j : (⟨4, ![P, N, U, V]⟩ : Shape).Idx) : (slabDims S P N U V wf).window j 1 = (j 1).val := by
  unfold ScatterDims.window
  have h : (1 : Fin 4) ∈ (slabDims S P N U V wf).sKept := by
    show (1 : Fin 4) ∈ (List.finRange 4).filter (· ∉ ([0] : List (Fin 4)))
    decide
  rw [dif_pos h]
  rfl
theorem slab_window_2 (j : (⟨4, ![P, N, U, V]⟩ : Shape).Idx) : (slabDims S P N U V wf).window j 2 = (j 2).val := by
  unfold ScatterDims.window
  have h : (2 : Fin 4) ∈ (slabDims S P N U V wf).sKept := by
    show (2 : Fin 4) ∈ (List.finRange 4).filter (· ∉ ([0] : List (Fin 4)))
    decide
  rw [dif_pos h]
  rfl
theorem slab_window_3 (j : (⟨4, ![P, N, U, V]⟩ : Shape).Idx) : (slabDims S P N U V wf).window j 3 = (j 3).val := by
  unfold ScatterDims.window
  have h : (3 : Fin 4) ∈ (slabDims S P N U V wf).sKept := by
    show (3 : Fin 4) ∈ (List.finRange 4).filter (· ∉ ([0] : List (Fin 4)))
    decide
  rw [dif_pos h]
  rfl

/-- WHERE AN UPDATE LANDS: update element `j = (p, n', u', v')` lands on operand element `i = (s, n, u, v)` exactly when the
    scatter index of slab `p`, read signed, is `s` and the three other coordinates agree. -/
theorem slab_resultIdx?_eq_some_iff (j : (⟨4, ![P, N, U, V]⟩ : Shape).Idx) (idx : IVec ⟨2, ![P, 1]⟩ w)
    (i : (⟨4, ![S, N, U, V]⟩ : Shape).Idx) :
    (slabDims S P N U V wf).resultIdx? j idx = some i ↔
      (idx (slabIdx (j 0))).toInt = ((i 0).val : Int) ∧ (j 1).val = (i 1).val ∧ (j 2).val = (i 2).val ∧ (j 3).val = (i 3).val := by
  have hi0 : (i 0).val < S := (i 0).isLt
  have hi1 : (i 1).val < N := (i 1).isLt
  have hi2 : (i 2).val < U := (i 2).isLt
  have hi3 : (i 3).val < V := (i 3).isLt
  have hj1 : (j 1).val < N := (j 1).isLt
  have hj2 : (j 2).val < U := (j 2).isLt
  have hj3 : (j 3).val < V := (j 3).isLt
  unfold ScatterDims.resultIdx?
  split
  · rename_i h
    constructor
    · intro he
      have he' := Option.some.inj he
      have h0 := congrArg (fun f => (f 0).val) he'
      have h1 := congrArg (fun f => (f 1).val) he'
      have h2 := congrArg (fun f => (f 2).val) he'
      have h3 := congrArg (fun f => (f 3).val) he'
      have hb0 := h 0
      have hb1 := h 1
      have hb2 := h 2
      have hb3 := h 3
      simp only [slab_start_0, slab_start_1, slab_start_2, slab_start_3, slab_window_0, slab_window_1, slab_window_2,
        slab_window_3] at h0 h1 h2 h3 hb0 hb1 hb2 hb3
      refine ⟨?_, ?_, ?_, ?_⟩ <;> omega
    · rintro ⟨h0, h1, h2, h3⟩
      congr 1
      funext a
      refine Fin.ext ?_
      match a with
      | ⟨0, _⟩ =>
        show ((slabDims S P N U V wf).start j idx 0 + ((slabDims S P N U V wf).window j 0 : Int)).toNat = (i 0).val
        rw [slab_start_0, slab_window_0]; omega
      | ⟨1, _⟩ =>
        show ((slabDims S P N U V wf).start j idx 1 + ((slabDims S P N U V wf).window j 1 : Int)).toNat = (i 1).val
        rw [slab_start_1, slab_window_1]; omega
      | ⟨2, _⟩ =>
        show ((slabDims S P N U V wf).start j idx 2 + ((slabDims S P N U V wf).window j 2 : Int)).toNat = (i 2).val
        rw [slab_start_2, slab_window_2]; omega
      | ⟨3, _⟩ =>
        show ((slabDims S P N U V wf).start j idx 3 + ((slabDims S P N U V wf).window j 3 : Int)).toNat = (i 3).val
        rw [slab_start_3, slab_window_3]; omega
  · rename_i h
    constructor
    · intro he; exact absurd he (by simp)
    · rintro ⟨h0, h1, h2, h3⟩
      exfalso; apply h
      intro a
      match a with
      | ⟨0, _⟩ =>
        show 0 ≤ (slabDims S P N U V wf).start j idx 0 + ((slabDims S P N U V wf).window j 0 : Int)
          ∧ (slabDims S P N U V wf).start j idx 0 + ((slabDims S P N U V wf).window j 0 : Int) < (S : Int)
        rw [slab_start_0, slab_window_0]; omega
      | ⟨1, _⟩ =>
        show 0 ≤ (slabDims S P N U V wf).start j idx 1 + ((slabDims S P N U V wf).window j 1 : Int)
          ∧ (slabDims S P N U V wf).start j idx 1 + ((slabDims S P N U V wf).window j 1 : Int) < (N : Int)
        rw [slab_start_1, slab_window_1]; omega
      | ⟨2, _⟩ =>
        show 0 ≤ (slabDims S P N U V wf).start j idx 2 + ((slabDims S P N U V wf).window j 2 : Int)
          ∧ (slabDims S P N U V wf).start j idx 2 + ((slabDims S P N U V wf).window j 2 : Int) < (U : Int)
        rw [slab_start_2, slab_window_2]; omega
      | ⟨3, _⟩ =>
        show 0 ≤ (slabDims S P N U V wf).start j idx 3 + ((slabDims S P N U V wf).window j 3 : Int)
          ∧ (slabDims S P N U V wf).start j idx 3 + ((slabDims S P N U V wf).window j 3 : Int) < (V : Int)
        rw [slab_start_3, slab_window_3]; omega

/-- THE SCATTER-ADD OF SLABS READ AT `(s, n, u, v)`, at the ideal values: the operand there plus, over every update slab
    `p`, the update `(p, n, u, v)` where slab `p`'s scatter index is `s` and zero where it is not. An index outside
    `[0, S)` equals no `s`, so its slab contributes nothing. -/
theorem hostScatterAdd_slabs_apply (x : (⟨4, ![S, N, U, V]⟩ : Shape).Idx → EReal) (idx : IVec ⟨2, ![P, 1]⟩ w)
    (upd : (⟨4, ![P, N, U, V]⟩ : Shape).Idx → EReal) (s : Fin S) (n : Fin N) (u : Fin U) (v : Fin V) :
    Ideal.hostScatterAdd (slabDims S P N U V wf) x idx upd (ix4 s n u v)
      = x (ix4 s n u v) + ∑ p : Fin P, if (idx (slabIdx p)).toInt = (s.val : Int) then upd (ix4 p n u v) else 0 := by
  unfold Ideal.hostScatterAdd
  congr 1
  rw [Finset.sum_filter, sum_idx4]
  refine Finset.sum_congr rfl fun p _ => ?_
  rw [Finset.sum_eq_single n]
  · rw [Finset.sum_eq_single u]
    · rw [Finset.sum_eq_single v]
      · simp only [slab_resultIdx?_eq_some_iff]
        show (if (idx (slabIdx p)).toInt = (s.val : Int) ∧ n.val = n.val ∧ u.val = u.val ∧ v.val = v.val
          then upd (ix4 p n u v) else 0) = _
        simp only [and_true]
      · intro v' _ hne
        rw [if_neg]
        rw [slab_resultIdx?_eq_some_iff]
        rintro ⟨_, _, _, h3⟩
        exact hne (Fin.ext h3)
      · intro h; exact absurd (Finset.mem_univ v) h
    · intro u' _ hne
      refine Finset.sum_eq_zero fun v' _ => ?_
      rw [if_neg]
      rw [slab_resultIdx?_eq_some_iff]
      rintro ⟨_, _, h2, _⟩
      exact hne (Fin.ext h2)
    · intro h; exact absurd (Finset.mem_univ u) h
  · intro n' _ hne
    refine Finset.sum_eq_zero fun u' _ => Finset.sum_eq_zero fun v' _ => ?_
    rw [if_neg]
    rw [slab_resultIdx?_eq_some_iff]
    rintro ⟨_, h1, _, _⟩
    exact hne (Fin.ext h1)
  · intro h; exact absurd (Finset.mem_univ n) h

end ScatterSlabs

end Cert.RefValue

end
-- ==== Proof.LibGatherMid.lean ====
/-
  A `stablehlo.gather` of whole slices along the MIDDLE axis of a rank-3 array at a vector of indices, read at an index.

  What `h[:, idx, :]` of `h : [R, N, C]` at `idx : [J]` lowers to; result element `(r, j, c)` is `h[r, ·, c]` at the start
  index `idx[j, 0]` read as a signed integer and clamped into `[0, N − 1]`.
-/
import Idealize.ShloMosaic.PureOps.Ideal
import Idealize.ShloMosaic.Lib.ValueIdx

noncomputable section

open scoped BigOperators

namespace Cert.RefValue

open Idealize.ShloMosaic Idealize.ShloMosaic.ValueIdx

/-! ## A gather of whole slices along the middle axis of a rank-3 array, read at an index

What `h[:, idx, :]` of an array `h : [R, N, C]` at an integer vector `idx : [J]` lowers to: the start indices as `[J, 1]`,
offset_dims `[0, 2]`, collapsed_slice_dims `[1]`, start_index_map `[1]`, index_vector_dim 1, slice sizes `[R, 1, C]`. Result
element `(r, j, c)` is `h[r, ·, c]` at the start index `idx[j, 0]` read as a signed integer and clamped into `[0, N − 1]`,
as the gather clamps every start index. -/

section GatherMid
variable {α : Type}

/-- The dimension numbers of a middle-axis gather: operand `[R, N, C]`, start indices `[J, 1]`, result `[R, J, C]`; the
    whole of axes 0 and 2 is kept and axis 1 is read at the start index. -/
abbrev midGatherDims (R N C J : Nat)
    (wf : GatherDims.WF ⟨3, ![R, N, C]⟩ ⟨2, ![J, 1]⟩ ⟨3, ![R, J, C]⟩ [0, 2] [1] [] [1] [] 1 ![R, 1, C]) :
    GatherDims ⟨3, ![R, N, C]⟩ ⟨2, ![J, 1]⟩ ⟨3, ![R, J, C]⟩ where
  offsetDims := [0, 2]
  collapsedSliceDims := [1]
  operandBatchingDims := []
  startIndicesBatchingDims := []
  startIndexMap := [1]
  indexVectorDim := 1
  sliceSizes := ![R, 1, C]
  wf := wf

/-- THE MIDDLE-AXIS GATHER READ AT `(r, j, c)`: the operand at `(r, ·, c)` on the slice the start index `idx[j, 0]` names,
    read signed and clamped into `[0, N − 1]`. -/
theorem gather_mid_apply {R N C J w : Nat} (hN : 0 < N)
    (wf : GatherDims.WF ⟨3, ![R, N, C]⟩ ⟨2, ![J, 1]⟩ ⟨3, ![R, J, C]⟩ [0, 2] [1] [] [1] [] 1 ![R, 1, C])
    (x : (⟨3, ![R, N, C]⟩ : Shape).Idx → α) (idx : IVec ⟨2, ![J, 1]⟩ w) (r : Fin R) (j : Fin J) (c : Fin C) :
    Host.gather (midGatherDims R N C J wf) x idx (ix3 r j c)
      = x (ix3 r ⟨min (idx (ix2 j (0 : Fin 1))).toInt.toNat (N - 1), by omega⟩ c) := by
  unfold Host.gather
  congr 1
  funext a
  refine Fin.ext ?_
  match a with
  | ⟨0, _⟩ =>
    show (midGatherDims R N C J wf).start (ix3 r j c) idx 0 + (midGatherDims R N C J wf).batchCoord (ix3 r j c) 0
        + (midGatherDims R N C J wf).offCoord (ix3 r j c) 0 = r.val
    rw [GatherDims.batchCoord_eq_zero _ _ _ List.not_mem_nil]
    have hs : (midGatherDims R N C J wf).start (ix3 r j c) idx 0 = 0 := by
      unfold GatherDims.start
      rw [dif_neg (show (0 : Fin 3) ∉ ([1] : List (Fin 3)) by decide)]
    rw [hs]
    simp only [Nat.add_zero, Nat.zero_add]
    rfl
  | ⟨1, _⟩ =>
    show (midGatherDims R N C J wf).start (ix3 r j c) idx 1 + (midGatherDims R N C J wf).batchCoord (ix3 r j c) 1
        + (midGatherDims R N C J wf).offCoord (ix3 r j c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims R N C J wf).startIndexMap from List.mem_singleton.mpr rfl)]
    have hsi : (midGatherDims R N C J wf).siIdx (ix3 r j c) ⟨List.idxOf (1 : Fin 3) (midGatherDims R N C J wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  | ⟨2, _⟩ =>
    show (midGatherDims R N C J wf).start (ix3 r j c) idx 2 + (midGatherDims R N C J wf).batchCoord (ix3 r j c) 2
        + (midGatherDims R N C J wf).offCoord (ix3 r j c) 2 = c.val
    rw [GatherDims.batchCoord_eq_zero _ _ _ List.not_mem_nil]
    have hs : (midGatherDims R N C J wf).start (ix3 r j c) idx 2 = 0 := by
      unfold GatherDims.start
      rw [dif_neg (show (2 : Fin 3) ∉ ([1] : List (Fin 3)) by decide)]
    rw [hs]
    simp only [Nat.add_zero, Nat.zero_add]
    rfl

end GatherMid

end Cert.RefValue

end
-- ==== Proof.RefValue.lean ====
/- The reference's result array, index by index, is the segmented tensor product. -/
import proofs.«404265_j52879637348698_1_alg».proof.Proof.Gen.ReferenceIdeal.Read
import proofs.«404265_j52879637348698_1_alg».proof.Proof.Spec
import Idealize.ShloMosaic.PureOps.Ideal.Laws
import proofs.«404265_j52879637348698_1_alg».proof.Proof.LibScatterSlabs
import proofs.«404265_j52879637348698_1_alg».proof.Proof.LibGatherMid

noncomputable section

open scoped BigOperators

namespace Cert.RefValue

open Idealize.ShloMosaic Idealize.ShloMosaic.TcCoe Idealize.SL.Sem Idealize.ShloMosaic.ValueIdx Cert.ReferenceIdeal

/-! ## The reference's stages below the scatter, read at an index -/

section Reference

open Cert.TP

/-- The negative-index wrap `select (a < 0) b a` leaves a non-negative index alone. -/
theorem wrap_of_nonneg (a b : BitVec 32) (h : 0 ≤ a.toInt) :
    Scalar.select (IntOp.cmpi .slt a 0#32) b a = a := by
  have hs : a.slt 0#32 = false := by
    simp only [BitVec.slt, BitVec.toInt_zero, decide_eq_false_iff_not, not_lt]
    exact h
  have hc : IntOp.cmpi .slt a 0#32 = 0#1 := by
    unfold IntOp.cmpi
    show BitVec.ofBool (a.slt 0#32) = 0#1
    rw [hs]; rfl
  rw [hc]
  exact select_zero _ _

/-- The start index of path `p` into the segments of `x0`: the wrapped index is the index itself, being non-negative. -/
theorem v6_apply (x3 : (⟨S32, .i32⟩ : BufTy).Contents (Elt Ideal)) (g0 : Fin 32 → Fin 20)
    (hg0 : ∀ p : Fin 32, (x3 (ix1 p)).toInt = ((g0 p).val : ℤ)) (p : Fin 32) :
    Read.val_main_v6 (F := Ideal) x3 (ix2 p (0 : Fin 1)) = x3 (ix1 p) := by
  rw [Read.val_main_v6_apply]
  have hi : Read.idx_main_v6 (ix2 p (0 : Fin 1)) = ix1 p := by
    funext a; match a with | ⟨0, _⟩ => rfl
  rw [hi, Read.val_main_v5_apply, Read.val_main_v2_apply, Read.val_main_v1_apply, Read.val_main_c_apply]
  exact wrap_of_nonneg _ _ (by rw [hg0]; exact Int.natCast_nonneg _)

/-- The same for the segments of `x1`. -/
theorem v14_apply (x4 : (⟨S32, .i32⟩ : BufTy).Contents (Elt Ideal)) (g1 : Fin 32 → Fin 10)
    (hg1 : ∀ p : Fin 32, (x4 (ix1 p)).toInt = ((g1 p).val : ℤ)) (p : Fin 32) :
    Read.val_main_v14 (F := Ideal) x4 (ix2 p (0 : Fin 1)) = x4 (ix1 p) := by
  rw [Read.val_main_v14_apply]
  have hi : Read.idx_main_v14 (ix2 p (0 : Fin 1)) = ix1 p := by
    funext a; match a with | ⟨0, _⟩ => rfl
  rw [hi, Read.val_main_v13_apply, Read.val_main_v10_apply, Read.val_main_v9_apply, Read.val_main_c_1_apply]
  exact wrap_of_nonneg _ _ (by rw [hg1]; exact Int.natCast_nonneg _)

/-- The first gather at `(n, p, u)`: entry `u` of segment `g0 p` of row `n` of `x0`. -/
theorem v7_apply (x0 : (⟨S32768x640, .f32⟩ : BufTy).Contents (Elt Ideal)) (x3 : (⟨S32, .i32⟩ : BufTy).Contents (Elt Ideal))
    (g0 : Fin 32 → Fin 20) (hg0 : ∀ p : Fin 32, (x3 (ix1 p)).toInt = ((g0 p).val : ℤ))
    (n : Fin 32768) (p u : Fin 32) :
    Read.val_main_v7 (F := Ideal) x0 x3 (ix3 n p u) = x0 (ix2 n (col0 (g0 p) u)) := by
  have hg := (g0 p).isLt
  have key : ∀ k : Fin 20, k.val = (g0 p).val →
      Read.val_main_v0 (F := Ideal) x0 (ix3 n k u) = x0 (ix2 n (col0 (g0 p) u)) := by
    intro k hk
    obtain rfl : k = g0 p := Fin.ext hk
    rw [Read.val_main_v0_apply]
    congr 1
    funext a; refine Fin.ext ?_
    match a with
    | ⟨0, _⟩ =>
      show ((n.val * 20 + (g0 p).val) * 32 + u.val) / 640 = n.val
      omega
    | ⟨1, _⟩ =>
      show ((n.val * 20 + (g0 p).val) * 32 + u.val) % 640 = (g0 p).val * 32 + u.val
      omega
  unfold Read.val_main_v7
  refine (gather_mid_apply (R := 32768) (N := 20) (C := 32) (J := 32) (by decide)
    Facts₀.gather_S32768x20x32_S32x1_S32768x32x32_02_1_n_n_1_1_32768132_wf
    (Read.val_main_v0 (F := Ideal) x0) (Read.val_main_v6 (F := Ideal) x3) n p u).trans ?_
  refine key _ ?_
  show min (Read.val_main_v6 (F := Ideal) x3 (ix2 p (0 : Fin 1))).toInt.toNat (20 - 1) = (g0 p).val
  rw [v6_apply x3 g0 hg0 p, hg0 p, Int.toNat_natCast]
  omega

/-- The second gather at `(n, p, v)`: entry `v` of segment `g1 p` of row `n` of `x1`. -/
theorem v15_apply (x1 : (⟨S32768x80, .f32⟩ : BufTy).Contents (Elt Ideal)) (x4 : (⟨S32, .i32⟩ : BufTy).Contents (Elt Ideal))
    (g1 : Fin 32 → Fin 10) (hg1 : ∀ p : Fin 32, (x4 (ix1 p)).toInt = ((g1 p).val : ℤ))
    (n : Fin 32768) (p : Fin 32) (v : Fin 8) :
    Read.val_main_v15 (F := Ideal) x1 x4 (ix3 n p v) = x1 (ix2 n (col1 (g1 p) v)) := by
  have hg := (g1 p).isLt
  have key : ∀ k : Fin 10, k.val = (g1 p).val →
      Read.val_main_v8 (F := Ideal) x1 (ix3 n k v) = x1 (ix2 n (col1 (g1 p) v)) := by
    intro k hk
    obtain rfl : k = g1 p := Fin.ext hk
    rw [Read.val_main_v8_apply]
    congr 1
    funext a; refine Fin.ext ?_
    match a with
    | ⟨0, _⟩ =>
      show ((n.val * 10 + (g1 p).val) * 8 + v.val) / 80 = n.val
      omega
    | ⟨1, _⟩ =>
      show ((n.val * 10 + (g1 p).val) * 8 + v.val) % 80 = (g1 p).val * 8 + v.val
      omega
  unfold Read.val_main_v15
  refine (gather_mid_apply (R := 32768) (N := 10) (C := 8) (J := 32) (by decide)
    Facts₀.gather_S32768x10x8_S32x1_S32768x32x8_02_1_n_n_1_1_3276818_wf
    (Read.val_main_v8 (F := Ideal) x1) (Read.val_main_v14 (F := Ideal) x4) n p v).trans ?_
  refine key _ ?_
  show min (Read.val_main_v14 (F := Ideal) x4 (ix2 p (0 : Fin 1))).toInt.toNat (10 - 1) = (g1 p).val
  rw [v14_apply x4 g1 hg1 p, hg1 p, Int.toNat_natCast]
  omega

/-- The scatter's updates at `(p, n, u, v)`: the coefficient of path `p` times the two gathered entries. -/
theorem v24_apply (x0 : (⟨S32768x640, .f32⟩ : BufTy).Contents (Elt Ideal)) (x1 : (⟨S32768x80, .f32⟩ : BufTy).Contents (Elt Ideal))
    (x2 : (⟨S32, .f32⟩ : BufTy).Contents (Elt Ideal)) (x3 x4 : (⟨S32, .i32⟩ : BufTy).Contents (Elt Ideal))
    (g0 : Fin 32 → Fin 20) (g1 : Fin 32 → Fin 10)
    (hg0 : ∀ p : Fin 32, (x3 (ix1 p)).toInt = ((g0 p).val : ℤ)) (hg1 : ∀ p : Fin 32, (x4 (ix1 p)).toInt = ((g1 p).val : ℤ))
    (p : Fin 32) (n : Fin 32768) (u : Fin 32) (v : Fin 8) :
    Read.val_main_v24 (F := Ideal) x0 x1 x2 x3 x4 (ix4 p n u v)
      = (x2 (ix1 p) * x0 (ix2 n (col0 (g0 p) u))) * x1 (ix2 n (col1 (g1 p) v)) := by
  rw [Read.val_main_v24_apply]
  have h24 : Read.idx_main_v24 (ix4 p n u v) = ix4 n p u v := by
    funext a; match a with | ⟨0, _⟩ => rfl | ⟨1, _⟩ => rfl | ⟨2, _⟩ => rfl | ⟨3, _⟩ => rfl
  rw [h24, Read.val_main_v23_apply, Ideal.mulf_def, Read.val_main_v21_apply, Read.val_main_v22_apply]
  have h21 : Read.idx_main_v21 (ix4 n p u v) = ix4 n p u (0 : Fin 1) := by
    funext a; match a with | ⟨0, _⟩ => rfl | ⟨1, _⟩ => rfl | ⟨2, _⟩ => rfl | ⟨3, _⟩ => rfl
  have h22 : Read.idx_main_v22 (ix4 n p u v) = ix4 n p (0 : Fin 1) v := by
    funext a; match a with | ⟨0, _⟩ => rfl | ⟨1, _⟩ => rfl | ⟨2, _⟩ => rfl | ⟨3, _⟩ => rfl
  rw [h21, h22, Read.val_main_v19_apply, Ideal.mulf_def, Read.val_main_v18_apply, Read.val_main_v17_apply,
    Read.val_main_v20_apply]
  have h18 : Read.idx_main_v18 (ix4 n p u (0 : Fin 1)) = ix4 (0 : Fin 1) p (0 : Fin 1) (0 : Fin 1) := by
    funext a; match a with | ⟨0, _⟩ => rfl | ⟨1, _⟩ => rfl | ⟨2, _⟩ => rfl | ⟨3, _⟩ => rfl
  have h17 : Read.idx_main_v17 (ix4 n p u (0 : Fin 1)) = ix3 n p u := by
    funext a; match a with | ⟨0, _⟩ => rfl | ⟨1, _⟩ => rfl | ⟨2, _⟩ => rfl
  have h20 : Read.idx_main_v20 (ix4 n p (0 : Fin 1) v) = ix3 n p v := by
    funext a; match a with | ⟨0, _⟩ => rfl | ⟨1, _⟩ => rfl | ⟨2, _⟩ => rfl
  rw [h18, h17, h20, Read.val_main_v16_apply]
  have h16 : Read.idx_main_v16 (ix4 (0 : Fin 1) p (0 : Fin 1) (0 : Fin 1)) = ix1 p := by
    funext a; match a with | ⟨0, _⟩ => rfl
  rw [h16, v7_apply x0 x3 g0 hg0 n p u, v15_apply x1 x4 g1 hg1 n p v]

end Reference

/-- The reference's last stage is the segmented tensor product of its arguments, when the two gather index vectors name
    segments g0 p and g1 p inside their arrays. -/
theorem ref_eq (x0 : (⟨S32768x640, .f32⟩ : BufTy).Contents (Elt Ideal)) (x1 : (⟨S32768x80, .f32⟩ : BufTy).Contents (Elt Ideal))
    (x2 : (⟨S32, .f32⟩ : BufTy).Contents (Elt Ideal)) (x3 x4 x5 : (⟨S32, .i32⟩ : BufTy).Contents (Elt Ideal))
    (g0 : Fin 32 → Fin 20) (g1 : Fin 32 → Fin 10)
    (hg0 : ∀ p : Fin 32, (x3 (ix1 p)).toInt = ((g0 p).val : ℤ)) (hg1 : ∀ p : Fin 32, (x4 (ix1 p)).toInt = ((g1 p).val : ℤ)) :
    Read.val_main_v29 (F := Ideal) x0 x1 x2 x3 x4 x5 = Cert.TP.tp x0 x1 x2 g0 g1 x5 := by
  funext i
  obtain ⟨n, q, rfl⟩ : ∃ (n : Fin 32768) (q : Fin 3072), i = ix2 n q := ⟨i 0, i 1, eq_ix2 i⟩
  have hq := q.isLt
  rw [Read.val_main_v29_apply, Read.val_main_v28_apply]
  have hidx : Read.idx_main_v28 (Read.idx_main_v29 (ix2 n q))
      = ix4 (Cert.TP.segOf q) n (Cert.TP.uOf q) (Cert.TP.vOf q) := by
    funext a; refine Fin.ext ?_
    match a with
    | ⟨0, _⟩ =>
      show (n.val * 3072 + q.val) / 256 % 12 = q.val / 256
      omega
    | ⟨1, _⟩ =>
      show (n.val * 3072 + q.val) / 3072 = n.val
      omega
    | ⟨2, _⟩ =>
      show (n.val * 3072 + q.val) / 8 % 32 = q.val % 256 / 8
      omega
    | ⟨3, _⟩ =>
      show (n.val * 3072 + q.val) % 8 = q.val % 8
      omega
  rw [hidx]
  unfold Read.val_main_v27
  refine (hostScatterAdd_slabs_apply (S := 12) (P := 32) (N := 32768) (U := 32) (V := 8)
    Facts₀.scatter_S12x32768x32x8_S32x1_S32x32768x32x8_123_0_0_1_wf
    (Read.val_main_v25 (F := Ideal)) (Read.val_main_v26 (F := Ideal) x5) (Read.val_main_v24 (F := Ideal) x0 x1 x2 x3 x4)
    (Cert.TP.segOf q) n (Cert.TP.uOf q) (Cert.TP.vOf q)).trans ?_
  rw [Read.val_main_v25_apply, Read.val_main_cst_apply, Ideal.ofBits_def, Ideal.ofBits_zero_f32, zero_add]
  show _ = Cert.TP.tpAt x0 x1 x2 g0 g1 x5 n (Cert.TP.segOf q) (Cert.TP.uOf q) (Cert.TP.vOf q)
  unfold Cert.TP.tpAt
  refine Finset.sum_congr rfl fun p _ => ?_
  rw [Read.val_main_v26_apply, v24_apply x0 x1 x2 x3 x4 g0 g1 hg0 hg1]
  have h26 : Read.idx_main_v26 (slabIdx p) = ix1 p := by
    funext a; match a with | ⟨0, _⟩ => rfl
  rw [h26]

end Cert.RefValue

end
-- ==== Proof.HostSel0.lean ====
/- The [640, 1024] selection matrix the kernel's host side builds from the first index vector. -/
import proofs.«404265_j52879637348698_1_alg».proof.Proof.Gen.KernelIdeal.Frame
import proofs.«404265_j52879637348698_1_alg».proof.Proof.Spec
import Idealize.ShloMosaic.Lib.Pipeline.Value

noncomputable section

open scoped BigOperators

namespace Cert.KernelIdeal.HostSel0

open Idealize.ShloMosaic Idealize.ShloMosaic.TcCoe Idealize.SL.Sem Idealize.ShloMosaic.ValueIdx Cert.KernelIdeal Cert.KernelIdeal.Gen

/-! ## The host operations that build the matrix, stage by stage

The matrix is the product of two 0/1 factors laid out over four axes (segment s, entry u, path p, entry u') and then
flattened to rows s·32 + u and columns p·32 + u'. -/

/-- The [32, 20] array of bits: entry (p, s) is 1 exactly when the index word of path p is the word of s. -/
def st5 (x3 : IVec S32 32) : IVec S32x20 1 :=
  cmpi .eq (broadcastInDim S32x20 ![0, 1] bcast_S32x1_S32x20_0_1 (broadcastInDim S32x1 ![0] bcast_S32_S32x1_0 x3))
    (broadcastInDim S32x20 ![0, 1] bcast_S1x20_S32x20_0_1 (broadcastInDim S1x20 ![1] bcast_S20_S1x20_1 (iotaInDim S20 32 0)))

/-- The [32, 32] array of bits: entry (u, u') is 1 exactly when the word of u, plus the zero word, is the word of u'. -/
def st18 : IVec S32x32 1 :=
  cmpi .eq (addi (iotaInDim S32x32 32 0) (broadcastInDim S32x32 ![] bcast_S_S32x32 (constantI S_ 32 0#32))) (iotaInDim S32x32 32 1)

/-- The first factor on axes (s, ·, p, ·): the bits of `st5` as numbers, transposed to (s, p). -/
def st27 (x3 : IVec S32 32) : FVec Ideal S20x1x32x1 .f32 :=
  broadcastInDim S20x1x32x1 ![0, 2] bcast_S20x32_S20x1x32x1_0_2
    (transpose S20x32 [1, 0] (uitofp .f32 (st5 x3) : FVec Ideal S32x20 .f32) transposes_S32x20_S20x32_1_0)

/-- The second factor on axes (·, u, ·, u'): the bits of `st18` as numbers. -/
def st28 : FVec Ideal S1x32x1x32 .f32 :=
  broadcastInDim S1x32x1x32 ![1, 3] bcast_S32x32_S1x32x1x32_1_3 (uitofp .f32 st18 : FVec Ideal S32x32 .f32)

/-- The product of the two factors over all four axes (s, u, p, u'). -/
def st31 (x3 : IVec S32 32) : FVec Ideal S20x32x32x32 .f32 :=
  mulf (broadcastInDim S20x32x32x32 ![0, 1, 2, 3] bcast_S20x1x32x1_S20x32x32x32_0_1_2_3 (st27 x3))
    (broadcastInDim S20x32x32x32 ![0, 1, 2, 3] bcast_S1x32x1x32_S20x32x32x32_0_1_2_3 st28)

/-- The product flattened to [640, 1024] and narrowed to bf16 (the identity on extended reals). -/
def st33 (x3 : IVec S32 32) : FVec Ideal S640x1024 .bf16 :=
  truncf .bf16 (shapeCast S640x1024 (st31 x3) shapeCasts_S20x32x32x32_S640x1024 : FVec Ideal S640x1024 .f32) bitsLt_bf16_f32

/-- What the host operations leave in the array is the last stage, as a function of the first index vector alone. -/
theorem V_eq_st33 (m : (ℓ : Loc nD τ sig) → Buf (Elt Ideal) ℓ) (c : Dev nD) :
    (V m c main_v33 : S640x1024.Idx → EReal) = st33 (m ((c : Thread nD τ).loc main_arg3)) := by
  dsimp only [Gen.V, Gen.hostOps0]
  after_results_simp
  rfl

/-! ## Each stage read at an index -/

/-- A one-bit equality test, converted to a float, is the indicator of the equality. -/
theorem bit_toReal (a c : BitVec 32) :
    ((((IntOp.cmpi .eq a c).toNat : ℕ) : ℝ) : EReal) = if a = c then (1 : EReal) else 0 := by
  by_cases h : a = c
  · rw [if_pos h, (StableHlo.Predicate.cmpi_eq_iff).mpr h]
    norm_num
  · rw [if_neg h, eq_zero_of_ne_one (fun h1 => h (StableHlo.Predicate.cmpi_eq_iff.mp h1))]
    norm_num

theorem st5_apply (x3 : IVec S32 32) (p : Fin 32) (s : Fin 20) :
    st5 x3 (ix2 p s) = IntOp.cmpi .eq (x3 (ix1 p)) (BitVec.ofNat 32 s.val) := by
  unfold st5
  refine congrArg₂ (IntOp.cmpi .eq) ?_ ?_
  · refine (broadcastInDim_apply _ bcast_S32x1_S32x20_0_1 _ (ix2 p s) (ix2 p (0 : Fin 1)) (fun a => match a with
      | ⟨0, _⟩ => by show p.val = if (32 : Nat) = 1 then 0 else p.val; rw [if_neg (by decide)]
      | ⟨1, _⟩ => by show 0 = if (1 : Nat) = 1 then 0 else s.val; rw [if_pos rfl])).trans ?_
    exact broadcastInDim_apply _ bcast_S32_S32x1_0 x3 (ix2 p (0 : Fin 1)) (ix1 p) (fun a => match a with
      | ⟨0, _⟩ => by show p.val = if (32 : Nat) = 1 then 0 else p.val; rw [if_neg (by decide)])
  · refine (broadcastInDim_apply _ bcast_S1x20_S32x20_0_1 _ (ix2 p s) (ix2 (0 : Fin 1) s) (fun a => match a with
      | ⟨0, _⟩ => by show 0 = if (1 : Nat) = 1 then 0 else p.val; rw [if_pos rfl]
      | ⟨1, _⟩ => by show s.val = if (20 : Nat) = 1 then 0 else s.val; rw [if_neg (by decide)])).trans ?_
    exact broadcastInDim_apply _ bcast_S20_S1x20_1 (iotaInDim S20 32 0) (ix2 (0 : Fin 1) s) (ix1 s) (fun a => match a with
      | ⟨0, _⟩ => by show s.val = if (20 : Nat) = 1 then 0 else s.val; rw [if_neg (by decide)])

theorem st18_apply (u u' : Fin 32) :
    st18 (ix2 u u') = IntOp.cmpi .eq (BitVec.ofNat 32 u.val + 0#32) (BitVec.ofNat 32 u'.val) := rfl

theorem st27_apply (x3 : IVec S32 32) (s : Fin 20) (p : Fin 32) :
    st27 x3 (ix4 s (0 : Fin 1) p (0 : Fin 1)) = if x3 (ix1 p) = BitVec.ofNat 32 s.val then (1 : EReal) else 0 := by
  unfold st27
  refine (broadcastInDim_apply _ bcast_S20x32_S20x1x32x1_0_2 _ (ix4 s (0 : Fin 1) p (0 : Fin 1)) (ix2 s p) (fun a => match a with
    | ⟨0, _⟩ => by show s.val = if (20 : Nat) = 1 then 0 else s.val; rw [if_neg (by decide)]
    | ⟨1, _⟩ => by show p.val = if (32 : Nat) = 1 then 0 else p.val; rw [if_neg (by decide)])).trans ?_
  refine (transpose_apply [1, 0] _ transposes_S32x20_S20x32_1_0 (ix2 s p) (ix2 p s) (fun b => match b with
    | ⟨0, _⟩ => rfl
    | ⟨1, _⟩ => rfl)).trans ?_
  show ((((st5 x3 (ix2 p s)).toNat : ℕ) : ℝ) : EReal) = _
  rw [st5_apply, bit_toReal]

theorem st28_apply (u u' : Fin 32) :
    st28 (ix4 (0 : Fin 1) u (0 : Fin 1) u')
      = if BitVec.ofNat 32 u.val + 0#32 = BitVec.ofNat 32 u'.val then (1 : EReal) else 0 := by
  unfold st28
  refine (broadcastInDim_apply _ bcast_S32x32_S1x32x1x32_1_3 _ (ix4 (0 : Fin 1) u (0 : Fin 1) u') (ix2 u u') (fun a => match a with
    | ⟨0, _⟩ => by show u.val = if (32 : Nat) = 1 then 0 else u.val; rw [if_neg (by decide)]
    | ⟨1, _⟩ => by show u'.val = if (32 : Nat) = 1 then 0 else u'.val; rw [if_neg (by decide)])).trans ?_
  show ((((st18 (ix2 u u')).toNat : ℕ) : ℝ) : EReal) = _
  rw [st18_apply, bit_toReal]

theorem st31_apply (x3 : IVec S32 32) (s : Fin 20) (u p u' : Fin 32) :
    st31 x3 (ix4 s u p u')
      = (if x3 (ix1 p) = BitVec.ofNat 32 s.val then (1 : EReal) else 0)
        * (if BitVec.ofNat 32 u.val + 0#32 = BitVec.ofNat 32 u'.val then (1 : EReal) else 0) := by
  unfold st31
  rw [mulf_apply]
  refine congrArg₂ (· * ·) ?_ ?_
  · refine (broadcastInDim_apply _ bcast_S20x1x32x1_S20x32x32x32_0_1_2_3 _ (ix4 s u p u') (ix4 s (0 : Fin 1) p (0 : Fin 1)) (fun a => match a with
      | ⟨0, _⟩ => by show s.val = if (20 : Nat) = 1 then 0 else s.val; rw [if_neg (by decide)]
      | ⟨1, _⟩ => by show 0 = if (1 : Nat) = 1 then 0 else u.val; rw [if_pos rfl]
      | ⟨2, _⟩ => by show p.val = if (32 : Nat) = 1 then 0 else p.val; rw [if_neg (by decide)]
      | ⟨3, _⟩ => by show 0 = if (1 : Nat) = 1 then 0 else u'.val; rw [if_pos rfl])).trans ?_
    exact st27_apply x3 s p
  · refine (broadcastInDim_apply _ bcast_S1x32x1x32_S20x32x32x32_0_1_2_3 _ (ix4 s u p u') (ix4 (0 : Fin 1) u (0 : Fin 1) u') (fun a => match a with
      | ⟨0, _⟩ => by show 0 = if (1 : Nat) = 1 then 0 else s.val; rw [if_pos rfl]
      | ⟨1, _⟩ => by show u.val = if (32 : Nat) = 1 then 0 else u.val; rw [if_neg (by decide)]
      | ⟨2, _⟩ => by show 0 = if (1 : Nat) = 1 then 0 else p.val; rw [if_pos rfl]
      | ⟨3, _⟩ => by show u'.val = if (32 : Nat) = 1 then 0 else u'.val; rw [if_neg (by decide)])).trans ?_
    exact st28_apply u u'

/-- Two small words, the first with the zero word added, are equal exactly when the numbers are. -/
theorem ofNat_add_zero_eq_iff (u u' : Fin 32) :
    BitVec.ofNat 32 u.val + 0#32 = BitVec.ofNat 32 u'.val ↔ u.val = u'.val := by
  rw [BitVec.add_zero]
  constructor
  · intro h
    have h' := congrArg BitVec.toNat h
    simp only [BitVec.toNat_ofNat] at h'
    omega
  · intro h; rw [h]

theorem V_main_v33 (m : (ℓ : Loc nD τ sig) → Buf (Elt Ideal) ℓ) (c : Dev nD) :
    (V m c main_v33 : S640x1024.Idx → EReal) = Cert.TP.sel0 (m ((c : Thread nD τ).loc main_arg3)) := by
  rw [V_eq_st33]
  generalize m ((c : Thread nD τ).loc main_arg3) = x3
  funext i
  obtain ⟨k, j, rfl⟩ : ∃ (k : Fin 640) (j : Fin 1024), i = ix2 k j := ⟨i 0, i 1, eq_ix2 i⟩
  have hs : k.val / 32 < 20 := by omega
  have hp : j.val / 32 < 32 := by omega
  have hu : k.val % 32 < 32 := Nat.mod_lt _ (by decide)
  have hu' : j.val % 32 < 32 := Nat.mod_lt _ (by decide)
  have e1 : st33 x3 (ix2 k j) = st31 x3 (ix4 (⟨k.val / 32, hs⟩ : Fin 20) (⟨k.val % 32, hu⟩ : Fin 32) (⟨j.val / 32, hp⟩ : Fin 32) (⟨j.val % 32, hu'⟩ : Fin 32)) := by
    unfold st33
    rw [truncf_apply]
    refine shapeCast_apply (st31 x3) shapeCasts_S20x32x32x32_S640x1024 (ix2 k j) _ ?_
    rw [Shape.rowMajor_val_two, Shape.rowMajor_val_four]
    show ((k.val / 32 * 32 + k.val % 32) * 32 + j.val / 32) * 32 + j.val % 32 = k.val * 1024 + j.val
    omega
  rw [e1, st31_apply]
  show _ = (if (x3 (ix1 (⟨j.val / 32, _⟩ : Fin 32))).toInt = (((k.val / 32 : ℕ)) : ℤ) then (1 : EReal) else 0)
      * (if k.val % 32 = j.val % 32 then (1 : EReal) else 0)
  refine congrArg₂ (· * ·) (if_congr ?_ rfl rfl) (if_congr ?_ rfl rfl)
  · exact Cert.TP.eq_ofNat_iff_toInt _ _ (by show k.val / 32 < 2 ^ 31; omega)
  · exact ofNat_add_zero_eq_iff _ _

end Cert.KernelIdeal.HostSel0

end
-- ==== Proof.HostSel1.lean ====
/- The [80, 256] selection matrix the kernel's host side builds from the second index vector. -/
import proofs.«404265_j52879637348698_1_alg».proof.Proof.Gen.KernelIdeal.Frame
import proofs.«404265_j52879637348698_1_alg».proof.Proof.Spec
import Idealize.ShloMosaic.Lib.Pipeline.Value

noncomputable section

open scoped BigOperators

namespace Cert.KernelIdeal.HostSel1

open Idealize.ShloMosaic Idealize.ShloMosaic.TcCoe Idealize.SL.Sem Idealize.ShloMosaic.ValueIdx Cert.KernelIdeal Cert.KernelIdeal.Gen

/-- A one-bit word converted to a float is 1 when the bit is set and 0 when it is not. -/
theorem bitVal (b : BitVec 1) : (FloatOps.uitofp (F := Ideal) FTy.f32 b : EReal) = if b = 1#1 then 1 else 0 := by
  show (((b.toNat : ℕ) : ℝ) : EReal) = _
  rcases BitVec.eq_zero_or_eq_one b with h | h
  · subst h; simp
  · subst h; simp

/-- The 0/1 table "path p reads segment s": entry (p, s) compares the p-th index word with the word of s. -/
def segTab (i1 : IVec S32 32) : FVec Ideal S32x10 .f32 :=
  uitofp FTy.f32
    (cmpi CmpIPredicate.eq
      (broadcastInDim S32x10 ![0, 1] bcast_S32x1_S32x10_0_1 (broadcastInDim S32x1 ![0] bcast_S32_S32x1_0 i1))
      (broadcastInDim S32x10 ![0, 1] bcast_S1x10_S32x10_0_1 (broadcastInDim S1x10 ![1] bcast_S10_S1x10_1 (iotaInDim S10 32 0))))

/-- Entry (p, s) of the table is 1 exactly when the p-th index word reads, signed, as s. -/
theorem segTab_apply (i1 : IVec S32 32) (p : Fin 32) (s : Fin 10) :
    segTab i1 (ix2 p s) = if (i1 (ix1 p)).toInt = (s.val : ℤ) then 1 else 0 := by
  -- the index vector laid along the rows: (p, s) reads word p
  have hL : broadcastInDim S32x10 ![0, 1] bcast_S32x1_S32x10_0_1 (broadcastInDim S32x1 ![0] bcast_S32_S32x1_0 i1) (ix2 p s)
      = i1 (ix1 p) := by
    refine (broadcastInDim_apply _ bcast_S32x1_S32x10_0_1 _ (ix2 p s) (ix2 p (0 : Fin 1)) ?_).trans ?_
    · intro a
      match a with
      | ⟨0, _⟩ => show p.val = if (32 : ℕ) = 1 then 0 else p.val; rw [if_neg (by decide)]
      | ⟨1, _⟩ => show 0 = if (1 : ℕ) = 1 then 0 else s.val; rw [if_pos rfl]
    · refine broadcastInDim_apply _ bcast_S32_S32x1_0 i1 (ix2 p (0 : Fin 1)) (ix1 p) ?_
      intro a
      match a with
      | ⟨0, _⟩ => show p.val = if (32 : ℕ) = 1 then 0 else p.val; rw [if_neg (by decide)]
  -- the segment numbers 0 … 9 laid along the columns: (p, s) reads the word of s
  have hR : broadcastInDim S32x10 ![0, 1] bcast_S1x10_S32x10_0_1 (broadcastInDim S1x10 ![1] bcast_S10_S1x10_1 (iotaInDim S10 32 0)) (ix2 p s)
      = BitVec.ofNat 32 s.val := by
    refine (broadcastInDim_apply _ bcast_S1x10_S32x10_0_1 _ (ix2 p s) (ix2 (0 : Fin 1) s) ?_).trans ?_
    · intro a
      match a with
      | ⟨0, _⟩ => show 0 = if (1 : ℕ) = 1 then 0 else p.val; rw [if_pos rfl]
      | ⟨1, _⟩ => show s.val = if (10 : ℕ) = 1 then 0 else s.val; rw [if_neg (by decide)]
    · refine (broadcastInDim_apply _ bcast_S10_S1x10_1 (iotaInDim S10 32 0) (ix2 (0 : Fin 1) s) (ix1 s) ?_).trans rfl
      intro a
      match a with
      | ⟨0, _⟩ => show s.val = if (10 : ℕ) = 1 then 0 else s.val; rw [if_neg (by decide)]
  unfold segTab
  show FloatOps.uitofp (F := Ideal) FTy.f32 (IntOp.cmpi CmpIPredicate.eq _ _) = _
  rw [hL, hR, bitVal]
  refine if_congr ?_ rfl rfl
  rw [StableHlo.Predicate.cmpi_eq_iff]
  exact Cert.TP.eq_ofNat_iff_toInt _ _ (by have := s.isLt; omega)

/-- The 8 × 8 identity as a 0/1 table. -/
def idTab : FVec Ideal S8x8 .f32 :=
  uitofp FTy.f32
    (cmpi CmpIPredicate.eq
      (addi (iotaInDim S8x8 32 0) (broadcastInDim S8x8 ![] bcast_S_S8x8 (constantI S_ 32 0#32)))
      (iotaInDim S8x8 32 1))

/-- Entry (v, v') of it is 1 exactly when v = v'. -/
theorem idTab_apply (v v' : Fin 8) : idTab (ix2 v v') = if v.val = v'.val then 1 else 0 := by
  unfold idTab
  show FloatOps.uitofp (F := Ideal) FTy.f32 (IntOp.cmpi CmpIPredicate.eq (BitVec.ofNat 32 v.val + 0#32) (BitVec.ofNat 32 v'.val)) = _
  rw [bitVal, BitVec.add_zero]
  refine if_congr ?_ rfl rfl
  rw [StableHlo.Predicate.cmpi_eq_iff]
  have hv := v.isLt
  have hv' := v'.isLt
  constructor
  · intro h
    have h2 := (Cert.TP.eq_ofNat_iff_toInt _ _ (by omega)).mp h
    rw [StableHlo.Predicate.toInt_ofNat_small _ (by omega)] at h2
    exact_mod_cast h2
  · intro h
    rw [h]

/-- The host operations' array, composed: the outer product of the two tables laid out as [10·8, 32·8]. -/
def prog (i1 : IVec S32 32) : FVec Ideal S80x256 .bf16 :=
  truncf FTy.bf16
    (fun i =>
      shapeCast S80x256
        (mulf
          (broadcastInDim S10x8x32x8 ![0, 1, 2, 3] bcast_S10x1x32x1_S10x8x32x8_0_1_2_3
            (broadcastInDim S10x1x32x1 ![0, 2] bcast_S10x32_S10x1x32x1_0_2
              (transpose S10x32 [1, 0] (segTab i1) transposes_S32x10_S10x32_1_0)))
          (broadcastInDim S10x8x32x8 ![0, 1, 2, 3] bcast_S1x8x1x8_S10x8x32x8_0_1_2_3
            (broadcastInDim S1x8x1x8 ![1, 3] bcast_S8x8_S1x8x1x8_1_3 idTab)))
        shapeCasts_S10x8x32x8_S80x256 i)
    bitsLt_bf16_f32

/-- Row s·8 + v, column p·8 + v' of the array is the product of the two tables' entries (p, s) and (v, v'). -/
theorem prog_apply (i1 : IVec S32 32) (s : Fin 10) (v : Fin 8) (p : Fin 32) (v' : Fin 8) :
    prog i1 (ix2 (Cert.TP.col1 s v) (Cert.TP.colB p v')) = segTab i1 (ix2 p s) * idTab (ix2 v v') := by
  -- the first factor at (s, v, p, v') does not depend on v, v' and is the transposed table at (s, p)
  have hA : broadcastInDim S10x8x32x8 ![0, 1, 2, 3] bcast_S10x1x32x1_S10x8x32x8_0_1_2_3
        (broadcastInDim S10x1x32x1 ![0, 2] bcast_S10x32_S10x1x32x1_0_2
          (transpose S10x32 [1, 0] (segTab i1) transposes_S32x10_S10x32_1_0)) (ix4 s v p v')
      = segTab i1 (ix2 p s) := by
    refine (broadcastInDim_apply _ bcast_S10x1x32x1_S10x8x32x8_0_1_2_3 _ (ix4 s v p v') (ix4 s (0 : Fin 1) p (0 : Fin 1)) ?_).trans ?_
    · intro a
      match a with
      | ⟨0, _⟩ => show s.val = if (10 : ℕ) = 1 then 0 else s.val; rw [if_neg (by decide)]
      | ⟨1, _⟩ => show 0 = if (1 : ℕ) = 1 then 0 else v.val; rw [if_pos rfl]
      | ⟨2, _⟩ => show p.val = if (32 : ℕ) = 1 then 0 else p.val; rw [if_neg (by decide)]
      | ⟨3, _⟩ => show 0 = if (1 : ℕ) = 1 then 0 else v'.val; rw [if_pos rfl]
    refine (broadcastInDim_apply _ bcast_S10x32_S10x1x32x1_0_2 _ (ix4 s (0 : Fin 1) p (0 : Fin 1)) (ix2 s p) ?_).trans ?_
    · intro a
      match a with
      | ⟨0, _⟩ => show s.val = if (10 : ℕ) = 1 then 0 else s.val; rw [if_neg (by decide)]
      | ⟨1, _⟩ => show p.val = if (32 : ℕ) = 1 then 0 else p.val; rw [if_neg (by decide)]
    exact transpose_apply [1, 0] (segTab i1) transposes_S32x10_S10x32_1_0 (ix2 s p) (ix2 p s) (fun b => match b with
      | ⟨0, _⟩ => rfl
      | ⟨1, _⟩ => rfl)
  -- the second factor does not depend on s, p and is the identity table at (v, v')
  have hB : broadcastInDim S10x8x32x8 ![0, 1, 2, 3] bcast_S1x8x1x8_S10x8x32x8_0_1_2_3
        (broadcastInDim S1x8x1x8 ![1, 3] bcast_S8x8_S1x8x1x8_1_3 idTab) (ix4 s v p v')
      = idTab (ix2 v v') := by
    refine (broadcastInDim_apply _ bcast_S1x8x1x8_S10x8x32x8_0_1_2_3 _ (ix4 s v p v') (ix4 (0 : Fin 1) v (0 : Fin 1) v') ?_).trans ?_
    · intro a
      match a with
      | ⟨0, _⟩ => show 0 = if (1 : ℕ) = 1 then 0 else s.val; rw [if_pos rfl]
      | ⟨1, _⟩ => show v.val = if (8 : ℕ) = 1 then 0 else v.val; rw [if_neg (by decide)]
      | ⟨2, _⟩ => show 0 = if (1 : ℕ) = 1 then 0 else p.val; rw [if_pos rfl]
      | ⟨3, _⟩ => show v'.val = if (8 : ℕ) = 1 then 0 else v'.val; rw [if_neg (by decide)]
    refine broadcastInDim_apply _ bcast_S8x8_S1x8x1x8_1_3 idTab (ix4 (0 : Fin 1) v (0 : Fin 1) v') (ix2 v v') ?_
    intro a
    match a with
    | ⟨0, _⟩ => show v.val = if (8 : ℕ) = 1 then 0 else v.val; rw [if_neg (by decide)]
    | ⟨1, _⟩ => show v'.val = if (8 : ℕ) = 1 then 0 else v'.val; rw [if_neg (by decide)]
  unfold prog
  refine (truncf_apply (φ := FTy.f32) (ψ := FTy.bf16) _ bitsLt_bf16_f32 _).trans ?_
  -- position (s·8 + v, p·8 + v') of the [80, 256] layout is position (s, v, p, v') of the [10, 8, 32, 8] one
  refine (shapeCast_apply _ shapeCasts_S10x8x32x8_S80x256 (ix2 (Cert.TP.col1 s v) (Cert.TP.colB p v')) (ix4 s v p v') ?_).trans ?_
  · rw [Shape.rowMajor_val_four, Shape.rowMajor_val_two]
    show ((s.val * 8 + v.val) * 32 + p.val) * 8 + v'.val = (s.val * 8 + v.val) * 256 + (p.val * 8 + v'.val)
    omega
  rw [mulf_apply, hA, hB]

/-- The composed array is the selection matrix: row k = s·8 + v, column j = p·8 + v' with s = k / 8, v = k % 8,
    p = j / 8, v' = j % 8. -/
theorem prog_eq (i1 : IVec S32 32) : prog i1 = Cert.TP.sel1 i1 := by
  funext i
  obtain ⟨k, j, rfl⟩ : ∃ (k : Fin 80) (j : Fin 256), i = ix2 k j := ⟨i 0, i 1, eq_ix2 i⟩
  have hk := k.isLt
  have hj := j.isLt
  have ek : k = Cert.TP.col1 ⟨k.val / 8, by omega⟩ ⟨k.val % 8, by omega⟩ :=
    Fin.ext (by simp only [Cert.TP.col1]; omega)
  have ej : j = Cert.TP.colB ⟨j.val / 8, by omega⟩ ⟨j.val % 8, by omega⟩ :=
    Fin.ext (by simp only [Cert.TP.colB]; omega)
  have h := prog_apply i1 ⟨k.val / 8, by omega⟩ ⟨k.val % 8, by omega⟩ ⟨j.val / 8, by omega⟩ ⟨j.val % 8, by omega⟩
  rw [← ek, ← ej] at h
  rw [h, segTab_apply, idTab_apply]
  rfl

/-- What the array holds when the region is entered: the composed term of the host operations that write it, read off
    the operation list, which is the selection matrix of the second index vector. -/
theorem V_main_v41 (m : (ℓ : Loc nD τ sig) → Buf (Elt Ideal) ℓ) (c : Dev nD) :
    (V m c main_v41 : S80x256.Idx → EReal) = Cert.TP.sel1 (m ((c : Thread nD τ).loc main_arg4)) := by
  have e : (V m c main_v41 : S80x256.Idx → EReal) = prog (m ((c : Thread nD τ).loc main_arg4)) := by
    dsimp only [Gen.V, Gen.hostOps0]
    after_results_simp
    rfl
  rw [e]
  exact prog_eq _

end Cert.KernelIdeal.HostSel1

end
-- ==== Proof.HostOh2.lean ====
/- The [12, 32] weight table the kernel's host side builds from the third index vector and the coefficients. -/
import proofs.«404265_j52879637348698_1_alg».proof.Proof.Gen.KernelIdeal.Frame
import proofs.«404265_j52879637348698_1_alg».proof.Proof.Spec

noncomputable section

open scoped BigOperators

namespace Cert.KernelIdeal.HostOh2

open Idealize.ShloMosaic Idealize.ShloMosaic.TcCoe Idealize.SL.Sem Idealize.ShloMosaic.ValueIdx Cert.KernelIdeal Cert.KernelIdeal.Gen

/-- The two ways of writing a rank-2 index from its coordinates agree. -/
theorem ij_eq_ix2 {n0 n1 : Nat} (a : Fin n0) (b : Fin n1) : StableHlo.Predicate.ij a b = ix2 a b := by
  funext d
  match d with
  | ⟨0, _⟩ => rfl
  | ⟨1, _⟩ => rfl

/-- Likewise the two ways of writing a rank-1 index. -/
theorem ofFin_eq_ix1 {n : Nat} (a : Fin n) : Shape.Idx.ofFin a = ix1 a := by
  funext d
  match d with
  | ⟨0, _⟩ => exact Fin.ext rfl

/-- A vector laid along the first axis of a rectangle reads, at (p, q), its entry p. -/
theorem bcast_rows_ix2 {α : Type} {n k : Nat} (h₁ : (⟨1, ![n]⟩ : Shape).BroadcastsInDim ⟨2, ![n, 1]⟩ ![0])
    (h₂ : (⟨2, ![n, 1]⟩ : Shape).BroadcastsInDim ⟨2, ![n, k]⟩ ![0, 1]) (v : (⟨1, ![n]⟩ : Shape).Idx → α) (p : Fin n) (q : Fin k) :
    broadcastInDim ⟨2, ![n, k]⟩ ![0, 1] h₂ (broadcastInDim ⟨2, ![n, 1]⟩ ![0] h₁ v) (ix2 p q) = v (ix1 p) := by
  rw [← ij_eq_ix2, ← ofFin_eq_ix1]
  exact StableHlo.Predicate.bcast_rows h₁ h₂ v p q

/-- A vector laid along the second axis of a rectangle reads, at (p, q), its entry q. -/
theorem bcast_cols_ix2 {α : Type} {n k : Nat} (h₁ : (⟨1, ![k]⟩ : Shape).BroadcastsInDim ⟨2, ![1, k]⟩ ![1])
    (h₂ : (⟨2, ![1, k]⟩ : Shape).BroadcastsInDim ⟨2, ![n, k]⟩ ![0, 1]) (v : (⟨1, ![k]⟩ : Shape).Idx → α) (p : Fin n) (q : Fin k) :
    broadcastInDim ⟨2, ![n, k]⟩ ![0, 1] h₂ (broadcastInDim ⟨2, ![1, k]⟩ ![1] h₁ v) (ix2 p q) = v (ix1 q) := by
  rw [← ij_eq_ix2, ← ofFin_eq_ix1]
  exact StableHlo.Predicate.bcast_cols h₁ h₂ v p q

/-- The position vector reads its own position. -/
theorem iota_ix1 {n w : Nat} (p : Fin n) : iotaInDim (⟨1, ![n]⟩ : Shape) w 0 (ix1 p) = BitVec.ofNat w p.val := rfl

/-- A one-bit word converted to a float, at an index: the bit as a real number. -/
theorem uitofp_apply {s : Shape} {w : Nat} (x : IVec s w) (i : s.Idx) :
    (uitofp .f32 x : FVec Ideal s .f32) i = (((x i).toNat : ℝ) : EReal) := rfl

/-- A comparison of two integer arrays, at an index: the comparison of the entries. -/
theorem cmpi_apply {s : Shape} {w : Nat} (p : CmpIPredicate) (a b : IVec s w) (i : s.Idx) :
    cmpi p a b i = IntOp.cmpi p (a i) (b i) := rfl

/-- The equality test of two words, converted to a float, is 1 when they are equal and 0 when not. -/
theorem toReal_cmpi_eq {w : Nat} (a b : BitVec w) :
    (((IntOp.cmpi .eq a b).toNat : ℝ) : EReal) = if a = b then 1 else 0 := by
  by_cases h : a = b
  · rw [if_pos h, StableHlo.Predicate.cmpi_eq_iff.mpr h]
    simp
  · rw [if_neg h, eq_zero_of_ne_one (mt StableHlo.Predicate.cmpi_eq_iff.mp h)]
    simp

theorem V_main_v51 (m : (ℓ : Loc nD τ sig) → Buf (Elt Ideal) ℓ) (c : Dev nD) :
    (V m c main_v51 : S12x32.Idx → EReal)
      = Cert.TP.oh2c (m ((c : Thread nD τ).loc main_arg5)) (m ((c : Thread nD τ).loc main_arg2)) := by
  show StableHlo.after hostOps0 (fun b => m (c, b)) (Proc.devRef .tc main_v51) = _
  after_results_simp
  funext i
  obtain ⟨s, p, rfl⟩ : ∃ (s : Fin 12) (p : Fin 32), i = ix2 s p := ⟨i 0, i 1, eq_ix2 i⟩
  rw [mulf_apply, uitofp_apply, cmpi_apply, bcast_rows_ix2, bcast_cols_ix2, bcast_cols_ix2, iota_ix1, toReal_cmpi_eq]
  show _ = (if ((m ((c : Thread nD τ).loc main_arg5)) (ix1 p)).toInt = ((s.val : ℕ) : ℤ) then (1 : EReal) else 0)
    * (m ((c : Thread nD τ).loc main_arg2)) (ix1 p)
  congr 1
  refine if_congr ?_ rfl rfl
  rw [eq_comm]
  exact Cert.TP.eq_ofNat_iff_toInt _ _ (by have := s.isLt; omega)

end Cert.KernelIdeal.HostOh2

end
-- ==== Proof.Payload.lean ====
/- The kernel body's three arithmetic steps read at an index: two selection products and one weighted contraction. -/
import proofs.«404265_j52879637348698_1_alg».proof.Proof.Gen.KernelIdeal.Skeleton
import proofs.«404265_j52879637348698_1_alg».proof.Proof.Spec
import Idealize.ShloMosaic.PureOps.Ideal.Laws
import Idealize.ShloMosaic.Lib.Pipeline.Value

noncomputable section

open scoped BigOperators

namespace Cert.KernelIdeal.Payload

open Idealize.ShloMosaic Idealize.ShloMosaic.TcCoe Idealize.SL.Sem Idealize.ShloMosaic.ValueIdx Cert.KernelIdeal Cert.KernelIdeal.Gen Cert.TP

/-! ## The three contractions' operand indices, coordinate by coordinate

Each product sums over ONE contracted axis. At output index `j` and contraction position `k` the left and the right
operand are read at the indices below: a free (or batch) axis reads `j`, the contracted axis reads `k`. -/

/-- The first selection product's dimension numbers: [256, 640] by [640, 1024], rows by columns. -/
abbrev DA := dot_S256x640_S640x1024_S256x1024_1_0_0_1_n_n

theorem lhsA_0 (j : S256x1024.Idx) (k : DA.contr.Idx) : (DA.lhsIdx j k 0 : ℕ) = j 0 := by
  simp [DotDims.lhsIdx, DA, dot_S256x640_S640x1024_S256x1024_1_0_0_1_n_n]; rfl
theorem lhsA_1 (j : S256x1024.Idx) (k : DA.contr.Idx) : (DA.lhsIdx j k 1 : ℕ) = k ⟨0, by decide⟩ := by
  simp [DotDims.lhsIdx, DA, dot_S256x640_S640x1024_S256x1024_1_0_0_1_n_n]; rfl
theorem rhsA_0 (j : S256x1024.Idx) (k : DA.contr.Idx) : (DA.rhsIdx j k 0 : ℕ) = k ⟨0, by decide⟩ := by
  simp [DotDims.rhsIdx, DA, dot_S256x640_S640x1024_S256x1024_1_0_0_1_n_n]; rfl
theorem rhsA_1 (j : S256x1024.Idx) (k : DA.contr.Idx) : (DA.rhsIdx j k 1 : ℕ) = j 1 := by
  simp [DotDims.rhsIdx, DA, dot_S256x640_S640x1024_S256x1024_1_0_0_1_n_n]; rfl

/-- The second selection product's dimension numbers: [256, 80] by [80, 256], rows by columns. -/
abbrev DB := dot_S256x80_S80x256_S256x256_1_0_0_1_n_n

theorem lhsB_0 (j : S256x256.Idx) (k : DB.contr.Idx) : (DB.lhsIdx j k 0 : ℕ) = j 0 := by
  simp [DotDims.lhsIdx, DB, dot_S256x80_S80x256_S256x256_1_0_0_1_n_n]; rfl
theorem lhsB_1 (j : S256x256.Idx) (k : DB.contr.Idx) : (DB.lhsIdx j k 1 : ℕ) = k ⟨0, by decide⟩ := by
  simp [DotDims.lhsIdx, DB, dot_S256x80_S80x256_S256x256_1_0_0_1_n_n]; rfl
theorem rhsB_0 (j : S256x256.Idx) (k : DB.contr.Idx) : (DB.rhsIdx j k 0 : ℕ) = k ⟨0, by decide⟩ := by
  simp [DotDims.rhsIdx, DB, dot_S256x80_S80x256_S256x256_1_0_0_1_n_n]; rfl
theorem rhsB_1 (j : S256x256.Idx) (k : DB.contr.Idx) : (DB.rhsIdx j k 1 : ℕ) = j 1 := by
  simp [DotDims.rhsIdx, DB, dot_S256x80_S80x256_S256x256_1_0_0_1_n_n]; rfl

/-- The weighted contraction's dimension numbers, 'npu,npv->nuv': [256, 32, 32] by [256, 32, 8], the row axis n
    shared, the path axis p contracted, the result [256, 32, 8] indexed (n, u, v). -/
abbrev DC := dot_S256x32x32_S256x32x8_S256x32x8_1_1_2_2_0_0

theorem lhsC_0 (j : S256x32x8.Idx) (k : DC.contr.Idx) : (DC.lhsIdx j k 0 : ℕ) = j 0 := by
  simp [DotDims.lhsIdx, DC, dot_S256x32x32_S256x32x8_S256x32x8_1_1_2_2_0_0]; rfl
theorem lhsC_1 (j : S256x32x8.Idx) (k : DC.contr.Idx) : (DC.lhsIdx j k 1 : ℕ) = k ⟨0, by decide⟩ := by
  simp [DotDims.lhsIdx, DC, dot_S256x32x32_S256x32x8_S256x32x8_1_1_2_2_0_0]; rfl
theorem lhsC_2 (j : S256x32x8.Idx) (k : DC.contr.Idx) : (DC.lhsIdx j k 2 : ℕ) = j 1 := by
  simp [DotDims.lhsIdx, DC, dot_S256x32x32_S256x32x8_S256x32x8_1_1_2_2_0_0]; rfl
theorem rhsC_0 (j : S256x32x8.Idx) (k : DC.contr.Idx) : (DC.rhsIdx j k 0 : ℕ) = j 0 := by
  simp [DotDims.rhsIdx, DC, dot_S256x32x32_S256x32x8_S256x32x8_1_1_2_2_0_0]; rfl
theorem rhsC_1 (j : S256x32x8.Idx) (k : DC.contr.Idx) : (DC.rhsIdx j k 1 : ℕ) = k ⟨0, by decide⟩ := by
  simp [DotDims.rhsIdx, DC, dot_S256x32x32_S256x32x8_S256x32x8_1_1_2_2_0_0]; rfl
theorem rhsC_2 (j : S256x32x8.Idx) (k : DC.contr.Idx) : (DC.rhsIdx j k 2 : ℕ) = j 2 := by
  simp [DotDims.rhsIdx, DC, dot_S256x32x32_S256x32x8_S256x32x8_1_1_2_2_0_0]; rfl

/-- Two rank-3 multi-indices are equal when their three coordinates are equal as naturals. -/
theorem idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

/-! ## The payloads at an index

A reshape keeps the row-major position: (r, p, u) of [256, 32, 32] is (r, p·32 + u) of [256, 1024], and likewise for
[256, 32, 8] and [256, 256]. A narrowing of the format is the identity on the extended reals, and a product into the
zero accumulator is the plain sum over the contracted axis. -/

/-- Entry (r, p, u) of the first selection product: row r of the block times column p·32 + u of the matrix. -/
theorem pay3_apply (X : Vec Ideal S256x640 .f32) (W : Vec Ideal S640x1024 .bf16) (r : Fin 256) (p u : Fin 32) :
    k0_pay3 (F := Ideal) X W (ix3 r p u) = ∑ k : Fin 640, X (ix2 r k) * W (ix2 k (colA p u)) := by
  unfold k0_pay3
  refine (shapeCast_apply _ _ (ix3 r p u) (ix2 r (colA p u)) ?_).trans ?_
  · rw [Shape.rowMajor_val_two, Shape.rowMajor_val_three]
    show r.val * 1024 + (p.val * 32 + u.val) = (r.val * 32 + p.val) * 32 + u.val
    omega
  · rw [shapeCast_self]
    simp only [matmul]
    refine (Ideal.matmul_constant_zero_apply (φ₁ := .bf16) (φ₂ := .bf16) DA none
      (truncf .bf16 X bitsLt_bf16_f32) W (ix2 r (colA p u))).trans ?_
    rw [← Equiv.sum_comp (contrEquiv1 DA 640 rfl rfl).symm]
    refine Finset.sum_congr rfl fun k _ => ?_
    rw [truncf_apply]
    refine congrArg₂ (· * ·) (congrArg X ?_) (congrArg W ?_)
    · apply Shape.idx_ext₂
      · exact lhsA_0 _ _
      · exact (lhsA_1 _ _).trans (contrEquiv1_symm_val DA 640 rfl rfl k)
    · apply Shape.idx_ext₂
      · exact (rhsA_0 _ _).trans (contrEquiv1_symm_val DA 640 rfl rfl k)
      · exact rhsA_1 _ _

/-- Entry (r, p, v) of the second selection product: row r of the block times column p·8 + v of the matrix. -/
theorem pay4_apply (X : Vec Ideal S256x80 .f32) (W : Vec Ideal S80x256 .bf16) (r : Fin 256) (p : Fin 32) (v : Fin 8) :
    k0_pay4 (F := Ideal) X W (ix3 r p v) = ∑ k : Fin 80, X (ix2 r k) * W (ix2 k (colB p v)) := by
  unfold k0_pay4
  rw [truncf_apply]
  refine (shapeCast_apply _ _ (ix3 r p v) (ix2 r (colB p v)) ?_).trans ?_
  · rw [Shape.rowMajor_val_two, Shape.rowMajor_val_three]
    show r.val * 256 + (p.val * 8 + v.val) = (r.val * 32 + p.val) * 8 + v.val
    omega
  · rw [shapeCast_self]
    simp only [matmul]
    refine (Ideal.matmul_constant_zero_apply (φ₁ := .bf16) (φ₂ := .bf16) DB none
      (truncf .bf16 X bitsLt_bf16_f32) W (ix2 r (colB p v))).trans ?_
    rw [← Equiv.sum_comp (contrEquiv1 DB 80 rfl rfl).symm]
    refine Finset.sum_congr rfl fun k _ => ?_
    rw [truncf_apply]
    refine congrArg₂ (· * ·) (congrArg X ?_) (congrArg W ?_)
    · apply Shape.idx_ext₂
      · exact lhsB_0 _ _
      · exact (lhsB_1 _ _).trans (contrEquiv1_symm_val DB 80 rfl rfl k)
    · apply Shape.idx_ext₂
      · exact (rhsB_0 _ _).trans (contrEquiv1_symm_val DB 80 rfl rfl k)
      · exact rhsB_1 _ _

/-- Entry (r, u·8 + v) of one output segment: the contraction over the paths p of (A[r, p, u] · w[p]) · B[r, p, v]. -/
theorem pay2_apply (A : FVec Ideal S256x32x32 .f32) (B : FVec Ideal S256x32x8 .bf16) (wrow : Vec Ideal S1x32 .f32)
    (r : Fin 256) (u : Fin 32) (v : Fin 8) :
    k0_pay2 (F := Ideal) A B wrow (ix2 r (colB u v))
      = ∑ p : Fin 32, (A (ix3 r p u) * wrow (ix2 (0 : Fin 1) p)) * B (ix3 r p v) := by
  unfold k0_pay2
  refine (shapeCast_apply _ _ (ix2 r (colB u v)) (ix3 r u v) ?_).trans ?_
  · rw [Shape.rowMajor_val_two, Shape.rowMajor_val_three]
    show (r.val * 32 + u.val) * 8 + v.val = r.val * 256 + (u.val * 8 + v.val)
    omega
  · simp only [matmul]
    refine (Ideal.matmul_constant_zero_apply (φ₁ := .bf16) (φ₂ := .bf16) DC none _ B (ix3 r u v)).trans ?_
    rw [← Equiv.sum_comp (contrEquiv1 DC 32 rfl rfl).symm]
    refine Finset.sum_congr rfl fun p _ => ?_
    have hl : DC.lhsIdx (ix3 r u v) ((contrEquiv1 DC 32 rfl rfl).symm p) = ix3 r p u :=
      idx_ext₃ (lhsC_0 _ _) ((lhsC_1 _ _).trans (contrEquiv1_symm_val DC 32 rfl rfl p)) (lhsC_2 _ _)
    have hr : DC.rhsIdx (ix3 r u v) ((contrEquiv1 DC 32 rfl rfl).symm p) = ix3 r p v :=
      idx_ext₃ (rhsC_0 _ _) ((rhsC_1 _ _).trans (contrEquiv1_symm_val DC 32 rfl rfl p)) (rhsC_2 _ _)
    rw [hl, hr, truncf_apply, mulf_apply]
    refine congrArg (fun t => A (ix3 r p u) * t * B (ix3 r p v)) ?_
    refine (broadcastTo_apply _ _ (ix3 r p u) (ix3 (0 : Fin 1) p (0 : Fin 1)) fun a => ?_).trans ?_
    · match a with
      | ⟨0, _⟩ => rfl
      | ⟨1, _⟩ => rfl
      | ⟨2, _⟩ => rfl
    refine (shapeCast_apply _ _ (ix3 (0 : Fin 1) p (0 : Fin 1)) (ix1 p) ?_).trans ?_
    · rw [Shape.rowMajor_val_one, Shape.rowMajor_val_three]
      show p.val = (0 * 32 + p.val) * 1 + 0
      omega
    refine shapeCast_apply _ _ (ix1 p) (ix2 (0 : Fin 1) p) ?_
    rw [Shape.rowMajor_val_one, Shape.rowMajor_val_two]
    show 0 * 32 + p.val = p.val
    omega

end Cert.KernelIdeal.Payload

end
-- ==== Proof.Body.lean ====
/-
  What one grid point leaves in the output block. The body stores twelve column slabs of 256 columns each; slab s is the
  contraction over the paths of (A · w_s) with B, where A and B are the two selection products of the point's input rows
  and w_s is row s of the weight table. Read together the slabs are one function of the block's index.
-/
import proofs.«404265_j52879637348698_1_alg».proof.Proof.Gen.KernelIdeal.Frame
import proofs.«404265_j52879637348698_1_alg».proof.Proof.Payload
import proofs.«404265_j52879637348698_1_alg».proof.Proof.Spec
import Idealize.ShloMosaic.Lib.Pipeline.Value

noncomputable section

open scoped BigOperators

namespace Cert.KernelIdeal.Body

open Idealize.ShloMosaic Idealize.ShloMosaic.TcCoe Idealize.SL.Sem Idealize.ShloMosaic.ValueIdx Cert.KernelIdeal Cert.KernelIdeal.Gen Cert.TP
open Cert.KernelIdeal.Payload

variable (x0 : Vec Ideal S256x640 .f32) (x1 : Vec Ideal S256x80 .f32) (x2 : Vec Ideal S640x1024 .bf16)
  (x3 : Vec Ideal S80x256 .bf16) (x4 : Vec Ideal S12x32 .f32)

/-- Slab s of the block: its payload at (r, q) is the kernel-route function at row r, output segment s, position q. -/
theorem slab (s : Fin 12) (offw : Fin 2 → ℕ) (hw : offw = ![s.val, 0]) (inbw : ∀ a, offw a + S1x32.size a ≤ S12x32.size a)
    (offo : Fin 2 → ℕ) (ho : offo = ![0, s.val * 256]) (inbo : ∀ a, offo a + S256x256.size a ≤ S256x3072.size a)
    (x : S256x256.Idx) :
    k0_pay2 (F := Ideal) (k0_pay3 (View.ld x0 r0_0) (View.ld x2 r0_2)) (k0_pay4 (View.ld x1 r0_1) (View.ld x3 r0_3))
        (View.ld x4 (Rect.unit (s := S12x32) offw S1x32.size inbw)) x
      = kArr (R := 256) x0 x1 x2 x3 x4 ((Rect.unit (s := S256x3072) offo S256x256.size inbo).emb x) := by
  subst hw ho
  obtain ⟨r, q, rfl⟩ : ∃ (r : Fin 256) (q : Fin 256), x = ix2 r q := ⟨x 0, x 1, eq_ix2 x⟩
  have hq : q = colB ⟨q.val / 8, by omega⟩ ⟨q.val % 8, by omega⟩ := by
    apply Fin.ext; simp only [colB]; omega
  have hemb : (Rect.unit (s := S256x3072) ![0, s.val * 256] S256x256.size inbo).emb (ix2 r q)
      = (ix2 r (colOut s ⟨q.val / 8, by omega⟩ ⟨q.val % 8, by omega⟩) : S256x3072.Idx) := by
    funext a
    refine Fin.ext ?_
    match a with
    | ⟨0, _⟩ => show 0 + 1 * r.val = r.val; omega
    | ⟨1, _⟩ => show s.val * 256 + 1 * q.val = s.val * 256 + q.val / 8 * 8 + q.val % 8; omega
  rw [hemb]
  show _ = kAt x0 x1 x2 x3 x4 r (segOf (colOut s _ _)) (uOf (colOut s _ _)) (vOf (colOut s _ _))
  rw [segOf_colOut, uOf_colOut, vOf_colOut]
  conv_lhs => rw [hq]
  rw [pay2_apply]
  unfold kAt
  refine Finset.sum_congr rfl fun p _ => ?_
  rw [pay3_apply, pay4_apply]
  have hw4 : View.ld x4 (Rect.unit (s := S12x32) ![s.val, 0] S1x32.size inbw) (ix2 (0 : Fin 1) p) = x4 (ix2 s p) := by
    show x4 _ = x4 _
    refine congrArg x4 ?_
    funext a
    refine Fin.ext ?_
    match a with
    | ⟨0, _⟩ => show s.val + 1 * 0 = s.val; omega
    | ⟨1, _⟩ => show 0 + 1 * p.val = p.val; omega
  rw [hw4]
  have h0 : ∀ k : Fin 640, View.ld x0 r0_0 (ix2 r k) = x0 (ix2 r k) := fun k => by
    rw [View.ld_unit_zero (S := S256x640) (by funext a; match a with | ⟨0, _⟩ => rfl | ⟨1, _⟩ => rfl)]
  have h1 : ∀ k : Fin 80, View.ld x1 r0_1 (ix2 r k) = x1 (ix2 r k) := fun k => by
    rw [View.ld_unit_zero (S := S256x80) (by funext a; match a with | ⟨0, _⟩ => rfl | ⟨1, _⟩ => rfl)]
  have h2 : View.ld x2 r0_2 = x2 :=
    View.ld_unit_zero (S := S640x1024) (by funext a; match a with | ⟨0, _⟩ => rfl | ⟨1, _⟩ => rfl) _ x2
  have h3 : View.ld x3 r0_3 = x3 :=
    View.ld_unit_zero (S := S80x256) (by funext a; match a with | ⟨0, _⟩ => rfl | ⟨1, _⟩ => rfl) _ x3
  rw [h2, h3]
  simp only [h0, h1]

/-- THE BLOCK A POINT WRITES BACK, as one function of its index: the kernel-route function of the point's two row blocks
    and the three tables. -/
theorem out0_5_eq : out0_5 (F := Ideal) x0 x1 x2 x3 x4 = kArr (R := 256) x0 x1 x2 x3 x4 := by
  funext y
  unfold out0_5
  refine View.canon_apply_of_pieces (Val := Elt Ideal) (S := S256x3072) (e := .f32) (kArr (R := 256) x0 x1 x2 x3 x4) _ ?_ y (cover0_5 _ _ _ _ _ _ _ _ _ _ _ _ y)
  intro p hp x
  simp only [List.mem_cons, List.mem_nil_iff, or_false] at hp
  rcases hp with rfl | rfl | rfl | rfl | rfl | rfl | rfl | rfl | rfl | rfl | rfl | rfl
  · exact slab x0 x1 x2 x3 x4 ⟨11, by omega⟩ ![11, 0] rfl inb_S12x32_S1x32_11_0 ![0, 2816] rfl inb_S256x3072_S256x256_0_2816 x
  · exact slab x0 x1 x2 x3 x4 ⟨10, by omega⟩ ![10, 0] rfl inb_S12x32_S1x32_10_0 ![0, 2560] rfl inb_S256x3072_S256x256_0_2560 x
  · exact slab x0 x1 x2 x3 x4 ⟨9, by omega⟩ ![9, 0] rfl inb_S12x32_S1x32_9_0 ![0, 2304] rfl inb_S256x3072_S256x256_0_2304 x
  · exact slab x0 x1 x2 x3 x4 ⟨8, by omega⟩ ![8, 0] rfl inb_S12x32_S1x32_8_0 ![0, 2048] rfl inb_S256x3072_S256x256_0_2048 x
  · exact slab x0 x1 x2 x3 x4 ⟨7, by omega⟩ ![7, 0] rfl inb_S12x32_S1x32_7_0 ![0, 1792] rfl inb_S256x3072_S256x256_0_1792 x
  · exact slab x0 x1 x2 x3 x4 ⟨6, by omega⟩ ![6, 0] rfl inb_S12x32_S1x32_6_0 ![0, 1536] rfl inb_S256x3072_S256x256_0_1536 x
  · exact slab x0 x1 x2 x3 x4 ⟨5, by omega⟩ ![5, 0] rfl inb_S12x32_S1x32_5_0 ![0, 1280] rfl inb_S256x3072_S256x256_0_1280 x
  · exact slab x0 x1 x2 x3 x4 ⟨4, by omega⟩ ![4, 0] rfl inb_S12x32_S1x32_4_0 ![0, 1024] rfl inb_S256x3072_S256x256_0_1024 x
  · exact slab x0 x1 x2 x3 x4 ⟨3, by omega⟩ ![3, 0] rfl inb_S12x32_S1x32_3_0 ![0, 768] rfl inb_S256x3072_S256x256_0_768 x
  · exact slab x0 x1 x2 x3 x4 ⟨2, by omega⟩ ![2, 0] rfl inb_S12x32_S1x32_2_0 ![0, 512] rfl inb_S256x3072_S256x256_0_512 x
  · exact slab x0 x1 x2 x3 x4 ⟨1, by omega⟩ ![1, 0] rfl inb_S12x32_S1x32_1_0 ![0, 256] rfl inb_S256x3072_S256x256_0_256 x
  · exact slab x0 x1 x2 x3 x4 ⟨0, by omega⟩ ![0, 0] rfl inb_S12x32_S1x32_0_0 ![0, 0] rfl inb_S256x3072_S256x256_0_0 x

end Cert.KernelIdeal.Body

end
-- ==== Proof.Array.lean ====
/-
  From blocks to the array. Grid point t stages rows [256·t, 256·t + 256) of x0 and x1 and the three tables whole, and
  writes back rows [256·t, 256·t + 256) of the result; the 128 points' row blocks tile the 32768 rows. So the result array
  after the run is the kernel-route function of the arrays as the region finds them.
-/
import proofs.«404265_j52879637348698_1_alg».proof.Proof.Gen.KernelIdeal.Value
import proofs.«404265_j52879637348698_1_alg».proof.Proof.Body
import proofs.«404265_j52879637348698_1_alg».proof.Proof.Spec

noncomputable section

open scoped BigOperators

namespace Cert.TP

open Idealize.ShloMosaic Idealize.ShloMosaic.ValueIdx

/-- The kernel-route function depends on its two row arrays only through the row it reads. -/
theorem kAt_congr {R R' : ℕ} (X0 : (⟨2, ![R, 640]⟩ : Shape).Idx → EReal) (X1 : (⟨2, ![R, 80]⟩ : Shape).Idx → EReal)
    (X0' : (⟨2, ![R', 640]⟩ : Shape).Idx → EReal) (X1' : (⟨2, ![R', 80]⟩ : Shape).Idx → EReal)
    (W0 : (⟨2, ![640, 1024]⟩ : Shape).Idx → EReal) (W1 : (⟨2, ![80, 256]⟩ : Shape).Idx → EReal)
    (O2 : (⟨2, ![12, 32]⟩ : Shape).Idx → EReal) (r : Fin R) (n : Fin R')
    (h0 : ∀ k : Fin 640, X0 (ix2 r k) = X0' (ix2 n k)) (h1 : ∀ k : Fin 80, X1 (ix2 r k) = X1' (ix2 n k))
    (s : Fin 12) (u : Fin 32) (v : Fin 8) :
    kAt X0 X1 W0 W1 O2 r s u v = kAt X0' X1' W0 W1 O2 n s u v := by
  unfold kAt
  simp only [h0, h1]

end Cert.TP

namespace Cert.KernelIdeal.ArrayValue

open Idealize.ShloMosaic Idealize.ShloMosaic.TcCoe Idealize.SL.Sem Idealize.ShloMosaic.ValueIdx Cert.KernelIdeal Cert.KernelIdeal.Gen Cert.TP
open Idealize.ShloMosaic.Pipeline (Dat)

variable (m : (ℓ : Loc nD τ sig) → Buf (Elt Ideal) ℓ) (ρ : Dev nD → PrngReg)

/-- The kernel-route function of the five operand arrays as the region finds them. -/
def result (c : Dev nD) : S32768x3072.Idx → EReal :=
  kArr (R := 32768) (V m c main_arg0 : S32768x640.Idx → EReal) (V m c main_arg1 : S32768x80.Idx → EReal)
    (V m c main_v33 : S640x1024.Idx → EReal) (V m c main_v41 : S80x256.Idx → EReal) (V m c main_v51 : S12x32.Idx → EReal)

/-- The printed index maps over the 128 grid points: the two row windows and the output window sit at row block t,
    column block 0; the three table windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row 256·t + r of the array, for a row r of point t's block. -/
def rowOf (t : Fin cfg0.N) (r : Fin 256) : Fin 32768 :=
  ⟨t.val * 256 + r.val, by have h : t.val < 128 := Nat.lt_of_lt_of_eq t.isLt N_0
                           omega⟩

/-- Point t's block of x0 holds rows 256·t … of the array. -/
theorem blk0_apply (c : Dev nD) (t : Fin cfg0.N) (r : Fin 256) (k : Fin 640) :
    (iblk m c 0 t : S256x640.Idx → EReal) (ix2 r k) = (V m c main_arg0 : S32768x640.Idx → EReal) (ix2 (rowOf t r) k) := by
  obtain ⟨e0, e1, -⟩ := idx_facts t
  show (V m c main_arg0 : S32768x640.Idx → EReal) (((cfg0.win 0).blk t).view.emb (ix2 r k)) = _
  refine congrArg _ ?_
  funext a
  refine Fin.ext ?_
  match a with
  | ⟨0, _⟩ => show win0_0.index t (0 : Fin 2) * 256 + 1 * r.val = t.val * 256 + r.val; rw [e0]; omega
  | ⟨1, _⟩ => show win0_0.index t (1 : Fin 2) * 640 + 1 * k.val = k.val; rw [e1]; omega

/-- Point t's block of x1 holds rows 256·t … of the array. -/
theorem blk1_apply (c : Dev nD) (t : Fin cfg0.N) (r : Fin 256) (k : Fin 80) :
    (iblk m c 1 t : S256x80.Idx → EReal) (ix2 r k) = (V m c main_arg1 : S32768x80.Idx → EReal) (ix2 (rowOf t r) k) := by
  obtain ⟨-, -, e0, e1, -⟩ := idx_facts t
  show (V m c main_arg1 : S32768x80.Idx → EReal) (((cfg0.win 1).blk t).view.emb (ix2 r k)) = _
  refine congrArg _ ?_
  funext a
  refine Fin.ext ?_
  match a with
  | ⟨0, _⟩ => show win0_1.index t (0 : Fin 2) * 256 + 1 * r.val = t.val * 256 + r.val; rw [e0]; omega
  | ⟨1, _⟩ => show win0_1.index t (1 : Fin 2) * 80 + 1 * k.val = k.val; rw [e1]; omega

/-- The three table windows stage their arrays whole at every point. -/
theorem blk2_eq (c : Dev nD) (t : Fin cfg0.N) : (iblk m c 2 t : S640x1024.Idx → EReal) = (V m c main_v33 : S640x1024.Idx → EReal) := by
  obtain ⟨-, -, -, -, e0, e1, -⟩ := idx_facts t
  funext y
  show (V m c main_v33 : S640x1024.Idx → EReal) (((cfg0.win 2).blk t).view.emb y) = _
  refine congrArg _ ?_
  funext a
  refine Fin.ext ?_
  match a with
  | ⟨0, _⟩ => show win0_2.index t (0 : Fin 2) * 640 + 1 * (y 0).val = (y 0).val; rw [e0]; omega
  | ⟨1, _⟩ => show win0_2.index t (1 : Fin 2) * 1024 + 1 * (y 1).val = (y 1).val; rw [e1]; omega

theorem blk3_eq (c : Dev nD) (t : Fin cfg0.N) : (iblk m c 3 t : S80x256.Idx → EReal) = (V m c main_v41 : S80x256.Idx → EReal) := by
  obtain ⟨-, -, -, -, -, -, e0, e1, -⟩ := idx_facts t
  funext y
  show (V m c main_v41 : S80x256.Idx → EReal) (((cfg0.win 3).blk t).view.emb y) = _
  refine congrArg _ ?_
  funext a
  refine Fin.ext ?_
  match a with
  | ⟨0, _⟩ => show win0_3.index t (0 : Fin 2) * 80 + 1 * (y 0).val = (y 0).val; rw [e0]; omega
  | ⟨1, _⟩ => show win0_3.index t (1 : Fin 2) * 256 + 1 * (y 1).val = (y 1).val; rw [e1]; omega

theorem blk4_eq (c : Dev nD) (t : Fin cfg0.N) : (iblk m c 4 t : S12x32.Idx → EReal) = (V m c main_v51 : S12x32.Idx → EReal) := by
  obtain ⟨-, -, -, -, -, -, -, -, e0, e1, -⟩ := idx_facts t
  funext y
  show (V m c main_v51 : S12x32.Idx → EReal) (((cfg0.win 4).blk t).view.emb y) = _
  refine congrArg _ ?_
  funext a
  refine Fin.ext ?_
  match a with
  | ⟨0, _⟩ => show win0_4.index t (0 : Fin 2) * 12 + 1 * (y 0).val = (y 0).val; rw [e0]; omega
  | ⟨1, _⟩ => show win0_4.index t (1 : Fin 2) * 32 + 1 * (y 1).val = (y 1).val; rw [e1]; omega

/-- WHAT POINT t WRITES BACK is block t of the kernel-route function of the arrays. -/
theorem flushed_eq (c : Dev nD) (t : Fin cfg0.N) :
    (dats m 0 c).flushed 5 t = ((cfg0.win 5).blk t).view.read (Elt Ideal) (result m c) := by
  rw [Value.flushed5, Body.out0_5_eq]
  obtain ⟨-, -, -, -, -, -, -, -, -, -, e0, e1⟩ := idx_facts t
  funext j
  obtain ⟨r, q, rfl⟩ : ∃ (r : Fin 256) (q : Fin 3072), j = ix2 r q := ⟨j 0, j 1, eq_ix2 j⟩
  have hemb : ((cfg0.win 5).blk t).view.emb (ix2 r q) = (ix2 (rowOf t r) q : S32768x3072.Idx) := by
    funext a
    refine Fin.ext ?_
    match a with
    | ⟨0, _⟩ => show win0_5.index t (0 : Fin 2) * 256 + 1 * r.val = t.val * 256 + r.val; rw [e0]; omega
    | ⟨1, _⟩ => show win0_5.index t (1 : Fin 2) * 3072 + 1 * q.val = q.val; rw [e1]; omega
  show kAt (R := 256) (iblk m c 0 t) (iblk m c 1 t) (iblk m c 2 t) (iblk m c 3 t) (iblk m c 4 t) r (segOf q) (uOf q) (vOf q)
    = result m c (((cfg0.win 5).blk t).view.emb (ix2 r q))
  rw [hemb]
  show _ = kAt (R := 32768) (V m c main_arg0 : S32768x640.Idx → EReal) (V m c main_arg1 : S32768x80.Idx → EReal)
    (V m c main_v33 : S640x1024.Idx → EReal) (V m c main_v41 : S80x256.Idx → EReal) (V m c main_v51 : S12x32.Idx → EReal)
    (rowOf t r) (segOf q) (uOf q) (vOf q)
  rw [blk2_eq, blk3_eq, blk4_eq]
  exact kAt_congr _ _ _ _ _ _ _ r (rowOf t r) (blk0_apply m c t r) (blk1_apply m c t r) _ _ _

/-- THE RESULT ARRAY after the run: every row lies in the block of the point 256 rows wide that holds it. -/
theorem final (c : Dev nD) : (dats m 0 c).arrAt 5 cfg0.N = result m c :=
  (dats m 0 c).arrAt_eq_of_cover 5 (result m c) (fun t _ => flushed_eq m c t) fun i => by
    have hi0 : (i 0).val < 32768 := (i 0).isLt
    have hi1 : (i 1).val < 3072 := (i 1).isLt
    have hN : cfg0.N = 128 := N_0
    let t : Fin cfg0.N := ⟨(i 0).val / 256, by rw [hN]; omega⟩
    obtain ⟨-, -, -, -, -, -, -, -, -, -, e0, e1⟩ := idx_facts t
    refine ⟨t, flush0_5 t, ?_⟩
    show i ∈ ((View.whole main_v52).slice (win0_5.rect t)).set
    rw [View.set_slice_whole, Rect.mem_set_unit]
    intro a
    match a with
    | ⟨0, _⟩ =>
      show win0_5.index t (0 : Fin 2) * 256 ≤ (i 0).val ∧ (i 0).val < win0_5.index t (0 : Fin 2) * 256 + 256
      rw [e0]; show (i 0).val / 256 * 256 ≤ (i 0).val ∧ (i 0).val < (i 0).val / 256 * 256 + 256; omega
    | ⟨1, _⟩ =>
      show win0_5.index t (1 : Fin 2) * 3072 ≤ (i 1).val ∧ (i 1).val < win0_5.index t (1 : Fin 2) * 3072 + 3072
      rw [e1]; omega

/-- The kernel's run with the result array named. -/
theorem run : θ_run defs (onTc (τ := τ) (main (F := Ideal))) ⟨m, fun _ => 0, ρ⟩ fun r => ∀ c : Dev nD,
      r.2.mem ((c : Thread nD τ).loc main_v52) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ArrayValue

end
-- ==== Proof.lean ====
/- The segmented tensor product 'u,v,uv' (20 segments of 32 times 10 segments of 8 into 12 segments of 256, over 32 paths):
   a kernel that gathers by multiplying with 0/1 selection matrices and scatters by a 0/1-weighted contraction over the paths,
   against the reference's gather, outer product and segment sum. Under the precondition both gather index vectors name
   segments of their arrays, so each selection product picks exactly the gathered entry (x · 1 = x, x · 0 = 0 on every
   extended real), and a path whose output segment is not s contributes 0 on both sides: at the exact values both programs
   compute, index by index, the sum over the paths landing on segment s of c_p · x0[n, g0 p, u] · x1[n, g1 p, v].
   The frames are the generated ones (the reference's is its generated run with the result dropped); the idealization
   rewrote nothing, so there is nothing to preserve. -/
import proofs.«404265_j52879637348698_1_alg».proof.Defs
import proofs.«404265_j52879637348698_1_alg».proof.Proof.Gen.Kernel
import proofs.«404265_j52879637348698_1_alg».proof.Proof.Gen.Kernel.Skeleton
import proofs.«404265_j52879637348698_1_alg».proof.Proof.Gen.Kernel.Launch
import proofs.«404265_j52879637348698_1_alg».proof.Proof.Gen.Kernel.Points
import proofs.«404265_j52879637348698_1_alg».proof.Proof.Gen.Kernel.Frame
import proofs.«404265_j52879637348698_1_alg».proof.Proof.Gen.KernelIdeal
import proofs.«404265_j52879637348698_1_alg».proof.Proof.Gen.KernelIdeal.Skeleton
import proofs.«404265_j52879637348698_1_alg».proof.Proof.Gen.KernelIdeal.Launch
import proofs.«404265_j52879637348698_1_alg».proof.Proof.Gen.KernelIdeal.Points
import proofs.«404265_j52879637348698_1_alg».proof.Proof.Gen.KernelIdeal.Frame
import proofs.«404265_j52879637348698_1_alg».proof.Proof.Gen.ReferenceIdeal
import proofs.«404265_j52879637348698_1_alg».proof.Proof.Gen.KernelIdeal.Value
import proofs.«404265_j52879637348698_1_alg».proof.Proof.Gen.ReferenceIdeal.Run
import proofs.«404265_j52879637348698_1_alg».proof.Proof.Gen.ReferenceIdeal.Read
import proofs.«404265_j52879637348698_1_alg».proof.Proof.Gen.Pre_finite_inputs
import proofs.«404265_j52879637348698_1_alg».proof.Proof.Spec
import proofs.«404265_j52879637348698_1_alg».proof.Proof.Algebra
import proofs.«404265_j52879637348698_1_alg».proof.Proof.PreFacts
import proofs.«404265_j52879637348698_1_alg».proof.Proof.RefValue
import proofs.«404265_j52879637348698_1_alg».proof.Proof.HostSel0
import proofs.«404265_j52879637348698_1_alg».proof.Proof.HostSel1
import proofs.«404265_j52879637348698_1_alg».proof.Proof.HostOh2
import proofs.«404265_j52879637348698_1_alg».proof.Proof.Array
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array is the kernel-route function of the arguments and the three tables its host side builds
    from the index vectors; with those tables that function is the segmented tensor product, which is what the
    reference's last stage is. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨⟨g0, hg0⟩, ⟨g1, hg1⟩⟩ := Cert.PreFacts.ranges_of_pre _ _ _ _ _ _ (hpre c)
  rw [Cert.ReferenceIdeal.Read.val_main_v29_eq]
  rw [(hagree c).1, (hagree c).2.1, (hagree c).2.2.1, (hagree c).2.2.2.1, (hagree c).2.2.2.2.1, (hagree c).2.2.2.2.2]
  rw [Cert.RefValue.ref_eq _ _ _ _ _ _ g0 g1 hg0 hg1]
  show _ = Cert.KernelIdeal.ArrayValue.result m c
  unfold Cert.KernelIdeal.ArrayValue.result
  rw [Cert.KernelIdeal.HostSel0.V_main_v33, Cert.KernelIdeal.HostSel1.V_main_v41, Cert.KernelIdeal.HostOh2.V_main_v51,
    Cert.KernelIdeal.Gen.V_main_arg0, Cert.KernelIdeal.Gen.V_main_arg1]
  exact (Cert.TP.kArr_tables_eq_tp _ _ _ _ _ _ g0 g1 hg0 hg1).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
